-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x80x80x80 : Shape := ⟨5, ![2, 32, 80, 80, 80]⟩
abbrev S_ : Shape := ⟨0, ![]⟩

class Facts : Prop where
  bcast_S_S2x32x80x80x80 : S_.BroadcastsInDim S2x32x80x80x80 (![] : Fin 0 → Fin S2x32x80x80x80.rank)
  reducesTo_S2x32x80x80x80_S_d0_1_2_3_4 : S2x32x80x80x80.ReducesTo [0, 1, 2, 3, 4] S_
  h_S_ : 0 < S_.numel

variable [Facts]

def fn {F : FTy → Type} [FloatOps F] (main_arg0 : FVec F S2x32x80x80x80 .f32) (main_arg1 : FVec F S2x32x80x80x80 .f32) (main_arg2 : FVec F S2x32x80x80x80 .f32) : IVec S_ 1 :=
  let main_v0 : FVec F S2x32x80x80x80 .f32 := Host.absf main_arg0
  let main_cst : FVec F S_ .f32 := constant S_ .f32 0x7F800000#32
  let main_v1 : FVec F S2x32x80x80x80 .f32 := broadcastInDim S2x32x80x80x80 ![] bcast_S_S2x32x80x80x80 main_cst
  let main_v2 : IVec S2x32x80x80x80 1 := cmpf .olt main_v0 main_v1
  let main_c : IVec S_ 1 := constantI S_ 1 1#1
  let main_v3 : IVec S_ 1 := (fun x v => Host.reduce IntOp.andi x v reducesTo_S2x32x80x80x80_S_d0_1_2_3_4 h_S_) main_v2 main_c
  let main_v4 : FVec F S2x32x80x80x80 .f32 := Host.absf main_arg1
  let main_cst_0 : FVec F S_ .f32 := constant S_ .f32 0x7F800000#32
  let main_v5 : FVec F S2x32x80x80x80 .f32 := broadcastInDim S2x32x80x80x80 ![] bcast_S_S2x32x80x80x80 main_cst_0
  let main_v6 : IVec S2x32x80x80x80 1 := cmpf .olt main_v4 main_v5
  let main_c_1 : IVec S_ 1 := constantI S_ 1 1#1
  let main_v7 : IVec S_ 1 := (fun x v => Host.reduce IntOp.andi x v reducesTo_S2x32x80x80x80_S_d0_1_2_3_4 h_S_) main_v6 main_c_1
  let main_v8 : IVec S_ 1 := andi main_v3 main_v7
  let main_v9 : FVec F S2x32x80x80x80 .f32 := Host.absf main_arg2
  let main_cst_2 : FVec F S_ .f32 := constant S_ .f32 0x7F800000#32
  let main_v10 : FVec F S2x32x80x80x80 .f32 := broadcastInDim S2x32x80x80x80 ![] bcast_S_S2x32x80x80x80 main_cst_2
  let main_v11 : IVec S2x32x80x80x80 1 := cmpf .olt main_v9 main_v10
  let main_c_3 : IVec S_ 1 := constantI S_ 1 1#1
  let main_v12 : IVec S_ 1 := (fun x v => Host.reduce IntOp.andi x v reducesTo_S2x32x80x80x80_S_d0_1_2_3_4 h_S_) main_v11 main_c_3
  let main_v13 : IVec S_ 1 := andi main_v8 main_v12
  main_v13
-- ==== Kernel.lean ====
abbrev S2x32x80x80x80 : Shape := ⟨5, ![2, 32, 80, 80, 80]⟩
abbrev S2x80x80x32x80 : Shape := ⟨5, ![2, 80, 80, 32, 80]⟩
abbrev S2x80x204800 : Shape := ⟨3, ![2, 80, 204800]⟩
abbrev S2x80x80 : Shape := ⟨3, ![2, 80, 80]⟩
abbrev S1x80x10240 : Shape := ⟨3, ![1, 80, 10240]⟩
abbrev S1x80x80 : Shape := ⟨3, ![1, 80, 80]⟩
abbrev S80x80 : Shape := ⟨2, ![80, 80]⟩
abbrev S80x10240 : Shape := ⟨2, ![80, 10240]⟩
abbrev S_ : Shape := ⟨0, ![]⟩
abbrev S2x80 : Shape := ⟨2, ![2, 80]⟩
abbrev S2x80x1 : Shape := ⟨3, ![2, 80, 1]⟩

abbrev nBuf : Space → Nat
  | .hbm => 27
  | .vmem => 13
  | .smem => 0
  | _ => 0

abbrev bufTy : (tb : Table) → Fin (tcTables nBuf tb) → BufTy
  | .hbm, ⟨0, _⟩ => ⟨S2x32x80x80x80, .f32⟩
  | .hbm, ⟨1, _⟩ => ⟨S2x32x80x80x80, .f32⟩
  | .hbm, ⟨2, _⟩ => ⟨S2x32x80x80x80, .f32⟩
  | .hbm, ⟨3, _⟩ => ⟨S2x80x80x32x80, .f32⟩
  | .hbm, ⟨4, _⟩ => ⟨S2x80x204800, .f32⟩
  | .hbm, ⟨5, _⟩ => ⟨S2x80x80x32x80, .f32⟩
  | .hbm, ⟨6, _⟩ => ⟨S2x80x204800, .f32⟩
  | .hbm, ⟨7, _⟩ => ⟨S2x80x80x32x80, .f32⟩
  | .hbm, ⟨8, _⟩ => ⟨S2x80x204800, .f32⟩
  | .hbm, ⟨9, _⟩ => ⟨S2x80x80, .f32⟩
  | .hbm, ⟨10, _⟩ => ⟨S_, .f32⟩
  | .hbm, ⟨11, _⟩ => ⟨S2x80, .f32⟩
  | .hbm, ⟨12, _⟩ => ⟨S_, .f32⟩
  | .hbm, ⟨13, _⟩ => ⟨S2x80, .f32⟩
  | .hbm, ⟨14, _⟩ => ⟨S2x80, .f32⟩
  | .hbm, ⟨15, _⟩ => ⟨S2x80x1, .f32⟩
  | .hbm, ⟨16, _⟩ => ⟨S2x80x80, .f32⟩
  | .hbm, ⟨17, _⟩ => ⟨S2x80x80, .f32⟩
  | .hbm, ⟨18, _⟩ => ⟨S2x80x80, .f32⟩
  | .hbm, ⟨19, _⟩ => ⟨S_, .f32⟩
  | .hbm, ⟨20, _⟩ => ⟨S2x80, .f32⟩
  | .hbm, ⟨21, _⟩ => ⟨S2x80x1, .f32⟩
  | .hbm, ⟨22, _⟩ => ⟨S2x80x80, .f32⟩
  | .hbm, ⟨23, _⟩ => ⟨S2x80x80, .f32⟩
  | .hbm, ⟨24, _⟩ => ⟨S2x80x204800, .f32⟩
  | .hbm, ⟨25, _⟩ => ⟨S2x80x80x32x80, .f32⟩
  | .hbm, ⟨26, _⟩ => ⟨S2x32x80x80x80, .f32⟩
  | .local _ .vmem, ⟨0, _⟩ => ⟨S1x80x10240, .f32⟩
  | .local _ .vmem, ⟨1, _⟩ => ⟨S1x80x10240, .f32⟩
  | .local _ .vmem, ⟨2, _⟩ => ⟨S1x80x10240, .f32⟩
  | .local _ .vmem, ⟨3, _⟩ => ⟨S1x80x10240, .f32⟩
  | .local _ .vmem, ⟨4, _⟩ => ⟨S1x80x80, .f32⟩
  | .local _ .vmem, ⟨5, _⟩ => ⟨S1x80x80, .f32⟩
  | .local _ .vmem, ⟨6, _⟩ => ⟨S80x80, .f32⟩
  | .local _ .vmem, ⟨7, _⟩ => ⟨S1x80x80, .f32⟩
  | .local _ .vmem, ⟨8, _⟩ => ⟨S1x80x80, .f32⟩
  | .local _ .vmem, ⟨9, _⟩ => ⟨S1x80x10240, .f32⟩
  | .local _ .vmem, ⟨10, _⟩ => ⟨S1x80x10240, .f32⟩
  | .local _ .vmem, ⟨11, _⟩ => ⟨S1x80x10240, .f32⟩
  | .local _ .vmem, ⟨12, _⟩ => ⟨S1x80x10240, .f32⟩
  | _, _ => ⟨S2x32x80x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 20], ![false, false]⟩

def k0_cond2 (i : grid0.Coords) : BitVec 1 :=
  let arg1 : BitVec 32 := BitVec.ofNat 32 (i 1).val
  let c19_i32 : BitVec 32 := 19#32
  let v15 : BitVec 1 := Scalar.cmpi .eq arg1 c19_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x80x10240 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x80x10240 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x80x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 20], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x80x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x80x10240 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x80x10240 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  transposes_S2x32x80x80x80_S2x80x80x32x80_0_3_2_1_4 : S2x32x80x80x80.Transposes [0, 3, 2, 1, 4] S2x80x80x32x80
  shapeCasts_S2x80x80x32x80_S2x80x204800 : S2x80x80x32x80.ShapeCasts S2x80x204800
  inb_S80x80_S80x80_0_0 : ∀ a, (![0, 0] : Fin 2 → Nat) a + S80x80.size a ≤ S80x80.size a
  h_S80x80 : 0 < S80x80.numel
  shapeCasts_S80x80_S80x80 : S80x80.ShapeCasts S80x80
  inb_S1x80x10240_S1x80x10240_0_0_0 : ∀ a, (![0, 0, 0] : Fin 3 → Nat) a + S1x80x10240.size a ≤ S1x80x10240.size a
  h_S1x80x10240 : 0 < S1x80x10240.numel
  shapeCasts_S1x80x10240_S80x10240 : S1x80x10240.ShapeCasts S80x10240
  bitsLt_bf16_f32 : FTy.bits .bf16 < FTy.bits .f32
  inb_S1x80x80_S1x80x80_0_0_0 : ∀ a, (![0, 0, 0] : Fin 3 → Nat) a + S1x80x80.size a ≤ S1x80x80.size a
  h_S1x80x80 : 0 < S1x80x80.numel
  shapeCasts_S1x80x80_S80x80 : S1x80x80.ShapeCasts S80x80
  shapeCasts_S80x80_S1x80x80 : S80x80.ShapeCasts S1x80x80
  reducesTo_S2x80x80_S2x80_d2 : S2x80x80.ReducesTo [2] S2x80
  h_S_ : 0 < S_.numel
  bcast_S_S2x80 : S_.BroadcastsInDim S2x80 (![] : Fin 0 → Fin S2x80.rank)
  bcast_S2x80_S2x80x1_0_1 : S2x80.BroadcastsInDim S2x80x1 (![0, 1] : Fin 2 → Fin S2x80x1.rank)
  bcast_S2x80x1_S2x80x80_0_1_2 : S2x80x1.BroadcastsInDim S2x80x80 (![0, 1, 2] : Fin 3 → Fin S2x80x80.rank)
  shapeCasts_S80x10240_S1x80x10240 : S80x10240.ShapeCasts S1x80x10240
  shapeCasts_S2x80x204800_S2x80x80x32x80 : S2x80x204800.ShapeCasts S2x80x80x32x80
  transposes_S2x80x80x32x80_S2x32x80x80x80_0_3_2_1_4 : S2x80x80x32x80.Transposes [0, 3, 2, 1, 4] S2x32x80x80x80
  dot_S80x10240_S80x10240_S80x80_1_1_0_0_n_n_wf : DotDims.WF S80x10240 S80x10240 S80x80 [1] [1] [0] [0] [] []
  dot_S80x80_S80x10240_S80x10240_1_0_0_1_n_n_wf : DotDims.WF S80x80 S80x10240 S80x10240 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x80x10240.size a ≤ S2x80x204800.size a
  hwx0_0 : ∀ i : grid0.Coords, EltTy.bits .f32 = 32 ∨ (Rect.block (s := S2x80x204800) S1x80x10240.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x80x10240.size a ≤ S2x80x204800.size a
  hwx0_1 : ∀ i : grid0.Coords, EltTy.bits .f32 = 32 ∨ (Rect.block (s := S2x80x204800) S1x80x10240.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x80x80.size a ≤ S2x80x80.size a
  hwx0_2 : ∀ i : grid0.Coords, EltTy.bits .f32 = 32 ∨ (Rect.block (s := S2x80x80) S1x80x80.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x80x80.size a ≤ S2x80x80.size a
  hwx1_0 : ∀ i : grid1.Coords, EltTy.bits .f32 = 32 ∨ (Rect.block (s := S2x80x80) S1x80x80.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x80x10240.size a ≤ S2x80x204800.size a
  hwx1_1 : ∀ i : grid1.Coords, EltTy.bits .f32 = 32 ∨ (Rect.block (s := S2x80x204800) S1x80x10240.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x80x10240.size a ≤ S2x80x204800.size a
  hwx1_2 : ∀ i : grid1.Coords, EltTy.bits .f32 = 32 ∨ (Rect.block (s := S2x80x204800) S1x80x10240.size (cc1_transform_2 i) (hinb1_2 i)).WholeWords (EltTy.packing .f32)

variable [Facts₀]

def dot_S80x10240_S80x10240_S80x80_1_1_0_0_n_n : DotDims S80x10240 S80x10240 S80x80 where
  lhsContracting := [1]
  rhsContracting := [1]
  lhsNonContracting := [0]
  rhsNonContracting := [0]
  lhsBatch := []
  rhsBatch := []
  wf := dot_S80x10240_S80x10240_S80x80_1_1_0_0_n_n_wf
def dot_S80x80_S80x10240_S80x10240_1_0_0_1_n_n : DotDims S80x80 S80x10240 S80x10240 where
  lhsContracting := [1]
  rhsContracting := [0]
  lhsNonContracting := [0]
  rhsNonContracting := [1]
  lhsBatch := []
  rhsBatch := []
  wf := dot_S80x80_S80x10240_S80x10240_1_0_0_1_n_n_wf

abbrev win0_0 : Pipeline.Window sig grid0 :=
  Pipeline.Window.ofSpec (Memref.whole main_v1) S1x80x10240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x80x10240.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x80x80.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v17) S1x80x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x80x10240.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x80x10240.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x32x80x80x80 : Shape := ⟨5, ![2, 32, 80, 80, 80]⟩
abbrev S2x80x80x32x80 : Shape := ⟨5, ![2, 80, 80, 32, 80]⟩
abbrev S2x80x204800 : Shape := ⟨3, ![2, 80, 204800]⟩
abbrev S2x80x80 : Shape := ⟨3, ![2, 80, 80]⟩
abbrev S_ : Shape := ⟨0, ![]⟩
abbrev S2x80 : Shape := ⟨2, ![2, 80]⟩
abbrev S2x80x1 : Shape := ⟨3, ![2, 80, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x32x80x80x80, .f32⟩
  | .hbm, ⟨1, _⟩ => ⟨S2x32x80x80x80, .f32⟩
  | .hbm, ⟨2, _⟩ => ⟨S2x32x80x80x80, .f32⟩
  | .hbm, ⟨3, _⟩ => ⟨S2x80x80x32x80, .f32⟩
  | .hbm, ⟨4, _⟩ => ⟨S2x80x204800, .f32⟩
  | .hbm, ⟨5, _⟩ => ⟨S2x80x80x32x80, .f32⟩
  | .hbm, ⟨6, _⟩ => ⟨S2x80x204800, .f32⟩
  | .hbm, ⟨7, _⟩ => ⟨S2x80x80x32x80, .f32⟩
  | .hbm, ⟨8, _⟩ => ⟨S2x80x204800, .f32⟩
  | .hbm, ⟨9, _⟩ => ⟨S2x80x80, .f32⟩
  | .hbm, ⟨10, _⟩ => ⟨S_, .f32⟩
  | .hbm, ⟨11, _⟩ => ⟨S2x80, .f32⟩
  | .hbm, ⟨12, _⟩ => ⟨S_, .f32⟩
  | .hbm, ⟨13, _⟩ => ⟨S2x80, .f32⟩
  | .hbm, ⟨14, _⟩ => ⟨S2x80, .f32⟩
  | .hbm, ⟨15, _⟩ => ⟨S2x80x1, .f32⟩
  | .hbm, ⟨16, _⟩ => ⟨S2x80x80, .f32⟩
  | .hbm, ⟨17, _⟩ => ⟨S2x80x80, .f32⟩
  | .hbm, ⟨18, _⟩ => ⟨S2x80x80, .f32⟩
  | .hbm, ⟨19, _⟩ => ⟨S_, .f32⟩
  | .hbm, ⟨20, _⟩ => ⟨S2x80, .f32⟩
  | .hbm, ⟨21, _⟩ => ⟨S2x80x1, .f32⟩
  | .hbm, ⟨22, _⟩ => ⟨S2x80x80, .f32⟩
  | .hbm, ⟨23, _⟩ => ⟨S2x80x80, .f32⟩
  | .hbm, ⟨24, _⟩ => ⟨S2x80x204800, .f32⟩
  | .hbm, ⟨25, _⟩ => ⟨S2x80x80x32x80, .f32⟩
  | .hbm, ⟨26, _⟩ => ⟨S2x32x80x80x80, .f32⟩
  | _, _ => ⟨S2x32x80x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  transposes_S2x32x80x80x80_S2x80x80x32x80_0_3_2_1_4 : S2x32x80x80x80.Transposes [0, 3, 2, 1, 4] S2x80x80x32x80
  shapeCasts_S2x80x80x32x80_S2x80x204800 : S2x80x80x32x80.ShapeCasts S2x80x204800
  reducesTo_S2x80x80_S2x80_d2 : S2x80x80.ReducesTo [2] S2x80
  h_S_ : 0 < S_.numel
  bcast_S_S2x80 : S_.BroadcastsInDim S2x80 (![] : Fin 0 → Fin S2x80.rank)
  bcast_S2x80_S2x80x1_0_1 : S2x80.BroadcastsInDim S2x80x1 (![0, 1] : Fin 2 → Fin S2x80x1.rank)
  bcast_S2x80x1_S2x80x80_0_1_2 : S2x80x1.BroadcastsInDim S2x80x80 (![0, 1, 2] : Fin 3 → Fin S2x80x80.rank)
  shapeCasts_S2x80x204800_S2x80x80x32x80 : S2x80x204800.ShapeCasts S2x80x80x32x80
  transposes_S2x80x80x32x80_S2x32x80x80x80_0_3_2_1_4 : S2x80x80x32x80.Transposes [0, 3, 2, 1, 4] S2x32x80x80x80
  dot_S2x80x204800_S2x80x204800_S2x80x80_2_2_1_1_0_0_wf : DotDims.WF S2x80x204800 S2x80x204800 S2x80x80 [2] [2] [1] [1] [0] [0]
  dot_S2x80x80_S2x80x204800_S2x80x204800_2_1_1_2_0_0_wf : DotDims.WF S2x80x80 S2x80x204800 S2x80x204800 [2] [1] [1] [2] [0] [0]

variable [Facts₀]

def dot_S2x80x204800_S2x80x204800_S2x80x80_2_2_1_1_0_0 : DotDims S2x80x204800 S2x80x204800 S2x80x80 where
  lhsContracting := [2]
  rhsContracting := [2]
  lhsNonContracting := [1]
  rhsNonContracting := [1]
  lhsBatch := [0]
  rhsBatch := [0]
  wf := dot_S2x80x204800_S2x80x204800_S2x80x80_2_2_1_1_0_0_wf
def dot_S2x80x80_S2x80x204800_S2x80x204800_2_1_1_2_0_0 : DotDims S2x80x80 S2x80x204800 S2x80x204800 where
  lhsContracting := [2]
  rhsContracting := [1]
  lhsNonContracting := [1]
  rhsNonContracting := [2]
  lhsBatch := [0]
  rhsBatch := [0]
  wf := dot_S2x80x80_S2x80x204800_S2x80x204800_2_1_1_2_0_0_wf

class Facts : Prop extends Facts₀ where

variable [Facts]
-- ==== Proof.KernelFrame.Region0Runs.lean ====
/-
  The first kernel region, S[b] = q[b] · k[b]ᵀ accumulated over 20 column tiles: what its three control cases share, and
  each case's whole-body run.

  A grid point is (batch b, tile kt), point number t = 20·b + kt. The body zeroes the 80 × 80 scratch accumulator when
  kt = 0, always adds the product of the two 80 × 10240 input tiles to it, and copies it to the output block when
  kt = 19. So there are three cases: A (kt = 0: reset and add; t ≡ 0 mod 20), B (0 < kt < 19: add), C (kt = 19: add and
  write out; t ≡ 19 mod 20). The output window is idle, and not written back, at the points of cases A and B. Each run
  is stated on whole staging memrefs with the pieces each buffer ends with found by the run itself.
-/
import proofs.«156873_j53326313947745_1_alg».proof.Proof.Gen.Kernel.Launch
import proofs.«156873_j53326313947745_1_alg».proof.Proof.Gen.Kernel.Skeleton
import proofs.«156873_j53326313947745_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's staging buffer holds the point's tile. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions, in closed form over the grid -/

/-- "This is the batch's first tile": the condition of the reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)

/-- "This is the batch's last tile": the condition of the write-out. -/
abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1x80x80 .f32 := (Memref.whole cc0_stg2_0 : Memref sig .tc .vmem S1x80x80 .f32).view
abbrev ms0_0 (t : Fin cfg0.N) : Memref sig .tc .vmem S1x80x10240 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x80x10240 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x80x80 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S80x80 .f32 := Memref.whole cc0_scratch0
abbrev VS0_0 : View sig .tc .vmem S80x80 .f32 := scM0_0.view

/-- The scoped buffers the region never touches: the other region's staging buffers, each whole at some contents. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's plain invariant with the accumulator as a memref owned at some contents. -/
theorem PhiA0_eq (c : Dev nD) :
    (Pipeline.ΦA spec0 c : sProp 𝕄)
      = iprop(iprop((∃ d, owns (c : Thread nD τ) scM0_0 fullShare d) ∗ restB (F := F) c) ∗ (∃ r, prngReg c r)) := by
  unfold Pipeline.ΦA restB; rw [scopedRest0_eq]; simp only [scM0_0, owns_whole]; try rfl

/-! ## The three whole-body runs -/

set_option maxHeartbeats 1000000 in
/-- CASE A (first tile of a batch): the accumulator, at anything, ends with its pieces written (the zero fill, then the
    first product added); the output's buffer is handed back untouched. -/
noncomputable def kernelRun0_A (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : cond0_0 i) (hc1 : ¬cond0_1 i)
    (x0 : Vec F S1x80x10240 .f32) (x1 : Vec F S1x80x10240 .f32) :
    Σ' (L2 : List (View.Piece (Elt F) S1x80x80 .f32)), { LS0 : List (View.Piece (Elt F) S80x80 .f32) //
      ∀ (xi2 : Vec F S1x80x80 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__qk_kernel i arg2 harg2 arg3 harg3 arg4 harg4 arg5 harg5) K } := by
  refine ⟨[], ?_, fun xi2 E K => ?run⟩
  case run =>
    simp only [cc0__qk_kernel_eq_skeleton]; unfold cc0__qk_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE B (a middle tile): the accumulator, at what the point before left, ends with the product added; the output's
    buffer is handed back untouched. -/
noncomputable def kernelRun0_B (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : ¬cond0_1 i)
    (x0 : Vec F S1x80x10240 .f32) (x1 : Vec F S1x80x10240 .f32) (xs0 : Vec F S80x80 .f32) :
    Σ' (L2 : List (View.Piece (Elt F) S1x80x80 .f32)), { LS0 : List (View.Piece (Elt F) S80x80 .f32) //
      ∀ (xi2 : Vec F S1x80x80 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__qk_kernel i arg2 harg2 arg3 harg3 arg4 harg4 arg5 harg5) K } := by
  refine ⟨[], ?_, fun xi2 E K => ?run⟩
  case run =>
    simp only [cc0__qk_kernel_eq_skeleton]; unfold cc0__qk_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE C (last tile of a batch): the accumulator, at what the point before left, ends with the product added, and the
    output's buffer, at anything, with the accumulator's contents written. -/
noncomputable def kernelRun0_C (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : cond0_1 i)
    (x0 : Vec F S1x80x10240 .f32) (x1 : Vec F S1x80x10240 .f32) (xs0 : Vec F S80x80 .f32) :
    Σ' (L2 : List (View.Piece (Elt F) S1x80x80 .f32)), { LS0 : List (View.Piece (Elt F) S80x80 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__qk_kernel i arg2 harg2 arg3 harg3 arg4 harg4 arg5 harg5) K } := by
  refine ⟨?_, ?_, fun E K => ?run⟩
  case run =>
    simp only [cc0__qk_kernel_eq_skeleton]; unfold cc0__qk_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.KernelFrame.Region0.lean ====
/-
  The first kernel region, S[b] = q[b] · k[b]ᵀ accumulated over 20 column tiles: the contents point by point, the
  pipeline's proof data and the body obligation.

  What the accumulator holds after point t is defined by recursion on t: at a batch's first tile (t ≡ 0 mod 20) the zero
  fill with the first product added, otherwise what point t − 1 left with the point's product added; the output block
  after point t is, at a batch's last tile (t ≡ 19 mod 20), the accumulator's contents, and is not consulted elsewhere
  (the window is idle there and not written back). The region's invariant before point t > 0 says the accumulator holds
  what point t − 1 left; before the first point and after the last it says nothing of it.
-/
import proofs.«156873_j53326313947745_1_alg».proof.Proof.KernelFrame.Region0Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from its pieces -/

/-- Case A stores nothing into the output block: a placeholder nothing consults. -/
def out0_A_2 (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : cond0_0 i) (hc1 : ¬cond0_1 i)
    (x0 x1 : Vec F S1x80x10240 .f32) : Vec F S1x80x80 .f32 :=
  VO0_2.read (Elt F) (VO0_2.writes (Elt F) VO0_2.junk (kernelRun0_A c i arg2 harg2 arg3 harg3 arg4 harg4 arg5 harg5 hc0 hc1 x0 x1).1)

/-- Case A's pieces for the accumulator cover it. -/
theorem scover0_A_0 (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : cond0_0 i) (hc1 : ¬cond0_1 i)
    (x0 x1 : Vec F S1x80x10240 .f32) (y : S80x80.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S80x80.size (by sl_kernel_rfl) y

/-- What case A leaves in the accumulator. -/
def sout0_A_0 (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : cond0_0 i) (hc1 : ¬cond0_1 i)
    (x0 x1 : Vec F S1x80x10240 .f32) : Vec F S80x80 .f32 :=
  VS0_0.read (Elt F) (VS0_0.writes (Elt F) VS0_0.junk (kernelRun0_A c i arg2 harg2 arg3 harg3 arg4 harg4 arg5 harg5 hc0 hc1 x0 x1).2.1)

/-- Case B stores nothing into the output block: a placeholder nothing consults. -/
def out0_B_2 (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : ¬cond0_1 i)
    (x0 x1 : Vec F S1x80x10240 .f32) (xs0 : Vec F S80x80 .f32) : Vec F S1x80x80 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : ¬cond0_1 i)
    (x0 x1 : Vec F S1x80x10240 .f32) (xs0 : Vec F S80x80 .f32) (y : S80x80.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S80x80.size (by sl_kernel_rfl) y

/-- What case B leaves in the accumulator. -/
def sout0_B_0 (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : ¬cond0_1 i)
    (x0 x1 : Vec F S1x80x10240 .f32) (xs0 : Vec F S80x80 .f32) : Vec F S80x80 .f32 :=
  VS0_0.read (Elt F) (VS0_0.writes (Elt F) VS0_0.junk (kernelRun0_B c i arg2 harg2 arg3 harg3 arg4 harg4 arg5 harg5 hc0 hc1 x0 x1 xs0).2.1)

/-- Case C's piece for the output block covers it. -/
theorem cover0_C_2 (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : cond0_1 i)
    (x0 x1 : Vec F S1x80x10240 .f32) (xs0 : Vec F S80x80 .f32) (y : S1x80x80.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x80x80.size (by sl_kernel_rfl) y

/-- What case C leaves in the output block's staging buffer. -/
def out0_C_2 (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : cond0_1 i)
    (x0 x1 : Vec F S1x80x10240 .f32) (xs0 : Vec F S80x80 .f32) : Vec F S1x80x80 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : cond0_1 i)
    (x0 x1 : Vec F S1x80x10240 .f32) (xs0 : Vec F S80x80 .f32) (y : S80x80.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S80x80.size (by sl_kernel_rfl) y

/-- What case C leaves in the accumulator. -/
def sout0_C_0 (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : cond0_1 i)
    (x0 x1 : Vec F S1x80x10240 .f32) (xs0 : Vec F S80x80 .f32) : Vec F S80x80 .f32 :=
  VS0_0.read (Elt F) (VS0_0.writes (Elt F) VS0_0.junk (kernelRun0_C c i arg2 harg2 arg3 harg3 arg4 harg4 arg5 harg5 hc0 hc1 x0 x1 xs0).2.1)

/-! ## What the output block and the accumulator hold after each point -/

/-- THE ACCUMULATION: after the body at position `n`, the output block's staging buffer and the accumulator (a pair), by
    the case `n mod 20` selects, the accumulator of cases B and C over what position `n − 1` left. -/
def outsAt0 (c : Dev nD) : (n : ℕ) → n < cfg0.N → Vec F S1x80x80 .f32 × Vec F S80x80 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 20 = 0 then
      if h1 : (n + 1) % 20 = 19 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 20 = 19 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 20 = 0) (h1 : ¬t.val % 20 = 19) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 20 = 0) (h1 : ¬t.val % 20 = 19) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 20 = 0) (h1 : t.val % 20 = 19) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start the plain invariant (the accumulator at anything); afterwards the accumulator at
    what position `n − 1` left, the untouched scoped buffers and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restB (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restB (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restB (F := F) c) ∗ (∃ r, prngReg c r)) := by
  cases n with
  | zero => exact absurd rfl hz
  | succ n => rfl

/-! ## The pipeline's proof data -/

/-- The proof data of the first pipeline on core `c`: the arrays as the region finds them; after the body at point `t`
    each input's buffer at its tile and the output's at `outsAt0`'s first component; the invariant `PhiS`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point, by cases on `t mod 20`: the inputs' memrefs hold their tiles; the invariant hands the body the
    accumulator at what the point before left (at anything at the very first point) and takes it back at this point's
    contents; where the output window is idle its buffer comes back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 40 := lt_of_lt_of_eq t.isLt (show cfg0.N = 40 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 20 = 0
  · by_cases h1 : t.val % 20 = 19
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun hz => h0 (by rw [hz])
    by_cases h1 : t.val % 20 = 19
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the plain one back: the accumulator's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 40 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hrest⟩, Hg⟩
  isplitl [HS0 Hrest]
  · isplitl [HS0]
    · iexists _; iexact HS0
    iexact Hrest
  iexact Hg

end Cert.Kernel.Fr

end
-- ==== Proof.KernelFrame.Region1.lean ====
/-
  The second kernel region: out[b, :, tile] = att[b] · v[b][:, tile], one grid point per (batch, column tile).

  At a point the body reads the attention block (80 × 80) and a value tile (80 × 10240) whole, multiplies them into a
  zero accumulator, and overwrites its output tile whole with the product. Nothing is carried between points. Stated
  here at any float instance, and at a PARAMETER `V`, the buffer contents when the region is entered: each window's
  block at a point, what the one store leaves in the output's staging buffer, the body's triple, the pipeline's proof
  data (inputs left in place, the output at the product of the input blocks) and the body obligation.
-/
import proofs.«156873_j53326313947745_1_alg».proof.Proof.Gen.Kernel.Launch
import proofs.«156873_j53326313947745_1_alg».proof.Proof.Gen.Kernel.Skeleton
import proofs.«156873_j53326313947745_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The attention window's staging buffer holds the batch's block at every point, fetched there or not: where it is not
    fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The value window's staging buffer holds the point's tile. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rAtt : Rect S1x80x80 := Rect.unit (s := S1x80x80) ![0, 0, 0] S1x80x80.size inb_S1x80x80_S1x80x80_0_0_0
abbrev rTile : Rect S1x80x10240 := Rect.unit (s := S1x80x10240) ![0, 0, 0] S1x80x10240.size inb_S1x80x10240_S1x80x10240_0_0_0

/-- What the body leaves in the output tile's staging buffer, from the two input blocks: its one store, of the product. -/
def out1_2 (x0 : Vec F S1x80x80 .f32) (x1 : Vec F S1x80x10240 .f32) : Vec F S1x80x10240 .f32 :=
  View.canon [⟨rTile, k1_pay1 (View.ld x0 rAtt) (View.ld x1 rTile)⟩]

/-- The store covers the buffer. -/
theorem cover1_2 (p0 : Vec F S1x80x10240 .f32) (y : S1x80x10240.Idx) :
    ∃ pc ∈ ([⟨rTile, p0⟩] : List (View.Piece (Elt F) S1x80x10240 .f32)), y ∈ pc.1.set :=
  View.cover_of_tiled [⟨rTile, p0⟩] S1x80x10240.size (by rfl) y

/-! ## The body's triple -/

set_option maxHeartbeats 1000000 in
/-- On whole staging memrefs, the inputs' at contents `x0`, `x1` and the output's at anything, the body runs to the
    continuation holding the inputs' as they were and the output's at the product of the inputs'. -/
theorem sound_kernel1 (c : Dev nD) (E : Set ℕ) (i : grid1.Coords) (arg2 : Memref sig .tc .vmem S1x80x80 .f32) (harg2 : arg2.IsWhole)
    (arg3 : Memref sig .tc .vmem S1x80x10240 .f32) (harg3 : arg3.IsWhole) (arg4 : Memref sig .tc .vmem S1x80x10240 .f32) (harg4 : arg4.IsWhole)
    (x0 : Vec F S1x80x80 .f32) (x1 : Vec F S1x80x10240 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__av_kernel i arg2 harg2 arg3 harg3 arg4 harg4) K := by
  simp only [cc1__av_kernel_eq_skeleton]; unfold cc1__av_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the second pipeline on core `c`: the arrays as the region finds them; after the body at point `t`
    each input's buffer at its block and the output's at the product of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KernelFrame.Run.lean ====
/-
  The whole program's run: host operations, the logits region, the softmax's host operations, the output region, the
  closing host operations.

  The contents of the core's buffers at each of the six boundaries are a fold from the launch memory: a host stretch
  applies its operations; a region leaves its windows' arrays at what its write-backs folded and every other buffer as
  entered. Every weakly fair execution terminates with every unscoped buffer at the last boundary's contents; the
  arguments are read back through the fold to their launch contents (no host operation writes one and no region has one
  among its arrays), which is the frame.
-/
import proofs.«156873_j53326313947745_1_alg».proof.Proof.KernelFrame.Region0
import proofs.«156873_j53326313947745_1_alg».proof.Proof.KernelFrame.Region1
import proofs.«156873_j53326313947745_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the transposes and reshapes of the three inputs (the logits region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the logits region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the softmax's host operations (the output region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the output region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the closing reshape and transpose: the end. -/
abbrev W5 : Dev nD → Valuation τ sig (Elt F) := fun c => StableHlo.after hostOps2 (W4 m c)

/-! ## The arguments end as launched -/

/-- `main_arg0` reaches the end as launched: no host stretch writes it, and it is no array of either region. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (show main_arg0 ∉ hostOps2_W by decide)
    _ = W3 m c (Proc.devRef .tc main_arg0) := W4_of_ne m c main_arg0 (by decide)
    _ = W2 m c (Proc.devRef .tc main_arg0) := StableHlo.after_of_writes_sub hostOps1 _ hostOps1_writes (show main_arg0 ∉ hostOps1_W by decide)
    _ = W1 m c (Proc.devRef .tc main_arg0) := W2_of_ne m c main_arg0 (by decide)
    _ = W0 m c (Proc.devRef .tc main_arg0) := StableHlo.after_of_writes_sub hostOps0 _ hostOps0_writes (show main_arg0 ∉ hostOps0_W by decide)
    _ = m ((c : Thread nD τ).loc main_arg0) := rfl
/-- `main_arg1` reaches the end as launched: no host stretch writes it, and it is no array of either region. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (show main_arg1 ∉ hostOps2_W by decide)
    _ = W3 m c (Proc.devRef .tc main_arg1) := W4_of_ne m c main_arg1 (by decide)
    _ = W2 m c (Proc.devRef .tc main_arg1) := StableHlo.after_of_writes_sub hostOps1 _ hostOps1_writes (show main_arg1 ∉ hostOps1_W by decide)
    _ = W1 m c (Proc.devRef .tc main_arg1) := W2_of_ne m c main_arg1 (by decide)
    _ = W0 m c (Proc.devRef .tc main_arg1) := StableHlo.after_of_writes_sub hostOps0 _ hostOps0_writes (show main_arg1 ∉ hostOps0_W by decide)
    _ = m ((c : Thread nD τ).loc main_arg1) := rfl
/-- `main_arg2` reaches the end as launched: no host stretch writes it, and it is no array of either region. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (show main_arg2 ∉ hostOps2_W by decide)
    _ = W3 m c (Proc.devRef .tc main_arg2) := W4_of_ne m c main_arg2 (by decide)
    _ = W2 m c (Proc.devRef .tc main_arg2) := StableHlo.after_of_writes_sub hostOps1 _ hostOps1_writes (show main_arg2 ∉ hostOps1_W by decide)
    _ = W1 m c (Proc.devRef .tc main_arg2) := W2_of_ne m c main_arg2 (by decide)
    _ = W0 m c (Proc.devRef .tc main_arg2) := StableHlo.after_of_writes_sub hostOps0 _ hostOps0_writes (show main_arg2 ∉ hostOps0_W by decide)
    _ = m ((c : Thread nD τ).loc main_arg2) := rfl

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W5 m c) ∗ ∃ r, prngReg c r)

/-- The two ends of the logits region's invariant, over the scoped rest and the generator register. -/
theorem hin0' (c : Dev nD) : (iprop(Pipeline.scopedRest (Ix := Unit) (Name := ℕ) (U := UR sig nD τ) (Lvl := ℕ) (Val := Elt F) spec0 c ∗ ∃ r, prngReg c r) : sProp 𝕄) ⊢ (pdats m 0 c).Φ 0 :=
  hin0 (V1 m) c
theorem hout0' (c : Dev nD) : (pdats m 0 c).Φ (Fin.last (Pipeline.pin (pcfgs (F := F)) adm 0).N) ⊢ (iprop(Pipeline.scopedRest (Ix := Unit) (Name := ℕ) (U := UR sig nD τ) (Lvl := ℕ) (Val := Elt F) spec0 c ∗ ∃ r, prngReg c r) : sProp 𝕄) :=
  hout0 (V1 m) c

/-! ## The regions as segments -/

set_option backward.isDefEq.respectTransparency.types false in
/-- The logits region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (hin0' m c)
    isplitl [Hr]; · iexact Hr
    iexact Hp
  hout c := by
    rw [Pipeline.ownSems0_none]
    have hout := hout0' m c
    iintro H
    ihave H' := hout $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output region: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory holds every unscoped buffer at the last boundary's contents `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (StableHlo.after hostOps2 (W4 m c)) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c)⟩) (run_main m ρ)

end Cert.Kernel.Fr

end
-- ==== Proof.KernelIdealFrame.Region0Runs.lean ====
/-
  The first kernel region, S[b] = q[b] · k[b]ᵀ accumulated over 20 column tiles: what its three control cases share, and
  each case's whole-body run.

  A grid point is (batch b, tile kt), point number t = 20·b + kt. The body zeroes the 80 × 80 scratch accumulator when
  kt = 0, always adds the product of the two 80 × 10240 input tiles to it, and copies it to the output block when
  kt = 19. So there are three cases: A (kt = 0: reset and add; t ≡ 0 mod 20), B (0 < kt < 19: add), C (kt = 19: add and
  write out; t ≡ 19 mod 20). The output window is idle, and not written back, at the points of cases A and B. Each run
  is stated on whole staging memrefs with the pieces each buffer ends with found by the run itself.
-/
import proofs.«156873_j53326313947745_1_alg».proof.Proof.Gen.KernelIdeal.Launch
import proofs.«156873_j53326313947745_1_alg».proof.Proof.Gen.KernelIdeal.Skeleton
import proofs.«156873_j53326313947745_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's staging buffer holds the point's tile. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions, in closed form over the grid -/

/-- "This is the batch's first tile": the condition of the reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)

/-- "This is the batch's last tile": the condition of the write-out. -/
abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1x80x80 .f32 := (Memref.whole cc0_stg2_0 : Memref sig .tc .vmem S1x80x80 .f32).view
abbrev ms0_0 (t : Fin cfg0.N) : Memref sig .tc .vmem S1x80x10240 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x80x10240 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x80x80 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S80x80 .f32 := Memref.whole cc0_scratch0
abbrev VS0_0 : View sig .tc .vmem S80x80 .f32 := scM0_0.view

/-- The scoped buffers the region never touches: the other region's staging buffers, each whole at some contents. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's plain invariant with the accumulator as a memref owned at some contents. -/
theorem PhiA0_eq (c : Dev nD) :
    (Pipeline.ΦA spec0 c : sProp 𝕄)
      = iprop(iprop((∃ d, owns (c : Thread nD τ) scM0_0 fullShare d) ∗ restB (F := F) c) ∗ (∃ r, prngReg c r)) := by
  unfold Pipeline.ΦA restB; rw [scopedRest0_eq]; simp only [scM0_0, owns_whole]; try rfl

/-! ## The three whole-body runs -/

set_option maxHeartbeats 1000000 in
/-- CASE A (first tile of a batch): the accumulator, at anything, ends with its pieces written (the zero fill, then the
    first product added); the output's buffer is handed back untouched. -/
noncomputable def kernelRun0_A (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : cond0_0 i) (hc1 : ¬cond0_1 i)
    (x0 : Vec F S1x80x10240 .f32) (x1 : Vec F S1x80x10240 .f32) :
    Σ' (L2 : List (View.Piece (Elt F) S1x80x80 .f32)), { LS0 : List (View.Piece (Elt F) S80x80 .f32) //
      ∀ (xi2 : Vec F S1x80x80 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__qk_kernel i arg2 harg2 arg3 harg3 arg4 harg4 arg5 harg5) K } := by
  refine ⟨[], ?_, fun xi2 E K => ?run⟩
  case run =>
    simp only [cc0__qk_kernel_eq_skeleton]; unfold cc0__qk_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE B (a middle tile): the accumulator, at what the point before left, ends with the product added; the output's
    buffer is handed back untouched. -/
noncomputable def kernelRun0_B (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : ¬cond0_1 i)
    (x0 : Vec F S1x80x10240 .f32) (x1 : Vec F S1x80x10240 .f32) (xs0 : Vec F S80x80 .f32) :
    Σ' (L2 : List (View.Piece (Elt F) S1x80x80 .f32)), { LS0 : List (View.Piece (Elt F) S80x80 .f32) //
      ∀ (xi2 : Vec F S1x80x80 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__qk_kernel i arg2 harg2 arg3 harg3 arg4 harg4 arg5 harg5) K } := by
  refine ⟨[], ?_, fun xi2 E K => ?run⟩
  case run =>
    simp only [cc0__qk_kernel_eq_skeleton]; unfold cc0__qk_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- CASE C (last tile of a batch): the accumulator, at what the point before left, ends with the product added, and the
    output's buffer, at anything, with the accumulator's contents written. -/
noncomputable def kernelRun0_C (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : cond0_1 i)
    (x0 : Vec F S1x80x10240 .f32) (x1 : Vec F S1x80x10240 .f32) (xs0 : Vec F S80x80 .f32) :
    Σ' (L2 : List (View.Piece (Elt F) S1x80x80 .f32)), { LS0 : List (View.Piece (Elt F) S80x80 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__qk_kernel i arg2 harg2 arg3 harg3 arg4 harg4 arg5 harg5) K } := by
  refine ⟨?_, ?_, fun E K => ?run⟩
  case run =>
    simp only [cc0__qk_kernel_eq_skeleton]; unfold cc0__qk_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KernelIdealFrame.Region0.lean ====
/-
  The first kernel region, S[b] = q[b] · k[b]ᵀ accumulated over 20 column tiles: the contents point by point, the
  pipeline's proof data and the body obligation.

  What the accumulator holds after point t is defined by recursion on t: at a batch's first tile (t ≡ 0 mod 20) the zero
  fill with the first product added, otherwise what point t − 1 left with the point's product added; the output block
  after point t is, at a batch's last tile (t ≡ 19 mod 20), the accumulator's contents, and is not consulted elsewhere
  (the window is idle there and not written back). The region's invariant before point t > 0 says the accumulator holds
  what point t − 1 left; before the first point and after the last it says nothing of it.
-/
import proofs.«156873_j53326313947745_1_alg».proof.Proof.KernelIdealFrame.Region0Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from its pieces -/

/-- Case A stores nothing into the output block: a placeholder nothing consults. -/
def out0_A_2 (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : cond0_0 i) (hc1 : ¬cond0_1 i)
    (x0 x1 : Vec F S1x80x10240 .f32) : Vec F S1x80x80 .f32 :=
  VO0_2.read (Elt F) (VO0_2.writes (Elt F) VO0_2.junk (kernelRun0_A c i arg2 harg2 arg3 harg3 arg4 harg4 arg5 harg5 hc0 hc1 x0 x1).1)

/-- Case A's pieces for the accumulator cover it. -/
theorem scover0_A_0 (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : cond0_0 i) (hc1 : ¬cond0_1 i)
    (x0 x1 : Vec F S1x80x10240 .f32) (y : S80x80.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S80x80.size (by sl_kernel_rfl) y

/-- What case A leaves in the accumulator. -/
def sout0_A_0 (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : cond0_0 i) (hc1 : ¬cond0_1 i)
    (x0 x1 : Vec F S1x80x10240 .f32) : Vec F S80x80 .f32 :=
  VS0_0.read (Elt F) (VS0_0.writes (Elt F) VS0_0.junk (kernelRun0_A c i arg2 harg2 arg3 harg3 arg4 harg4 arg5 harg5 hc0 hc1 x0 x1).2.1)

/-- Case B stores nothing into the output block: a placeholder nothing consults. -/
def out0_B_2 (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : ¬cond0_1 i)
    (x0 x1 : Vec F S1x80x10240 .f32) (xs0 : Vec F S80x80 .f32) : Vec F S1x80x80 .f32 :=
  VO0_2.read (Elt F) (VO0_2.writes (Elt F) VO0_2.junk (kernelRun0_B c i arg2 harg2 arg3 harg3 arg4 harg4 arg5 harg5 hc0 hc1 x0 x1 xs0).1)

theorem scover0_B_0 (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : ¬cond0_1 i)
    (x0 x1 : Vec F S1x80x10240 .f32) (xs0 : Vec F S80x80 .f32) (y : S80x80.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S80x80.size (by sl_kernel_rfl) y

/-- What case B leaves in the accumulator. -/
def sout0_B_0 (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : ¬cond0_1 i)
    (x0 x1 : Vec F S1x80x10240 .f32) (xs0 : Vec F S80x80 .f32) : Vec F S80x80 .f32 :=
  VS0_0.read (Elt F) (VS0_0.writes (Elt F) VS0_0.junk (kernelRun0_B c i arg2 harg2 arg3 harg3 arg4 harg4 arg5 harg5 hc0 hc1 x0 x1 xs0).2.1)

/-- Case C's piece for the output block covers it. -/
theorem cover0_C_2 (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : cond0_1 i)
    (x0 x1 : Vec F S1x80x10240 .f32) (xs0 : Vec F S80x80 .f32) (y : S1x80x80.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x80x80.size (by sl_kernel_rfl) y

/-- What case C leaves in the output block's staging buffer. -/
def out0_C_2 (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : cond0_1 i)
    (x0 x1 : Vec F S1x80x10240 .f32) (xs0 : Vec F S80x80 .f32) : Vec F S1x80x80 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : cond0_1 i)
    (x0 x1 : Vec F S1x80x10240 .f32) (xs0 : Vec F S80x80 .f32) (y : S80x80.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S80x80.size (by sl_kernel_rfl) y

/-- What case C leaves in the accumulator. -/
def sout0_C_0 (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : cond0_1 i)
    (x0 x1 : Vec F S1x80x10240 .f32) (xs0 : Vec F S80x80 .f32) : Vec F S80x80 .f32 :=
  VS0_0.read (Elt F) (VS0_0.writes (Elt F) VS0_0.junk (kernelRun0_C c i arg2 harg2 arg3 harg3 arg4 harg4 arg5 harg5 hc0 hc1 x0 x1 xs0).2.1)

/-! ## What the output block and the accumulator hold after each point -/

/-- THE ACCUMULATION: after the body at position `n`, the output block's staging buffer and the accumulator (a pair), by
    the case `n mod 20` selects, the accumulator of cases B and C over what position `n − 1` left. -/
def outsAt0 (c : Dev nD) : (n : ℕ) → n < cfg0.N → Vec F S1x80x80 .f32 × Vec F S80x80 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 20 = 0 then
      if h1 : (n + 1) % 20 = 19 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 20 = 19 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 20 = 0) (h1 : ¬t.val % 20 = 19) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 20 = 0) (h1 : ¬t.val % 20 = 19) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 20 = 0) (h1 : t.val % 20 = 19) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start the plain invariant (the accumulator at anything); afterwards the accumulator at
    what position `n − 1` left, the untouched scoped buffers and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restB (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restB (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restB (F := F) c) ∗ (∃ r, prngReg c r)) := by
  cases n with
  | zero => exact absurd rfl hz
  | succ n => rfl

/-! ## The pipeline's proof data -/

/-- The proof data of the first pipeline on core `c`: the arrays as the region finds them; after the body at point `t`
    each input's buffer at its tile and the output's at `outsAt0`'s first component; the invariant `PhiS`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point, by cases on `t mod 20`: the inputs' memrefs hold their tiles; the invariant hands the body the
    accumulator at what the point before left (at anything at the very first point) and takes it back at this point's
    contents; where the output window is idle its buffer comes back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 40 := lt_of_lt_of_eq t.isLt (show cfg0.N = 40 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 20 = 0
  · by_cases h1 : t.val % 20 = 19
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
  · have hz : t.val ≠ 0 := fun hz => h0 (by rw [hz])
    by_cases h1 : t.val % 20 = 19
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the plain one back: the accumulator's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 40 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hrest⟩, Hg⟩
  isplitl [HS0 Hrest]
  · isplitl [HS0]
    · iexists _; iexact HS0
    iexact Hrest
  iexact Hg

end Cert.KernelIdeal.Fr

end
-- ==== Proof.KernelIdealFrame.Region1.lean ====
/-
  The second kernel region: out[b, :, tile] = att[b] · v[b][:, tile], one grid point per (batch, column tile).

  At a point the body reads the attention block (80 × 80) and a value tile (80 × 10240) whole, multiplies them into a
  zero accumulator, and overwrites its output tile whole with the product. Nothing is carried between points. Stated
  here at any float instance, and at a PARAMETER `V`, the buffer contents when the region is entered: each window's
  block at a point, what the one store leaves in the output's staging buffer, the body's triple, the pipeline's proof
  data (inputs left in place, the output at the product of the input blocks) and the body obligation.
-/
import proofs.«156873_j53326313947745_1_alg».proof.Proof.Gen.KernelIdeal.Launch
import proofs.«156873_j53326313947745_1_alg».proof.Proof.Gen.KernelIdeal.Skeleton
import proofs.«156873_j53326313947745_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The attention window's staging buffer holds the batch's block at every point, fetched there or not: where it is not
    fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The value window's staging buffer holds the point's tile. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rAtt : Rect S1x80x80 := Rect.unit (s := S1x80x80) ![0, 0, 0] S1x80x80.size inb_S1x80x80_S1x80x80_0_0_0
abbrev rTile : Rect S1x80x10240 := Rect.unit (s := S1x80x10240) ![0, 0, 0] S1x80x10240.size inb_S1x80x10240_S1x80x10240_0_0_0

/-- What the body leaves in the output tile's staging buffer, from the two input blocks: its one store, of the product. -/
def out1_2 (x0 : Vec F S1x80x80 .f32) (x1 : Vec F S1x80x10240 .f32) : Vec F S1x80x10240 .f32 :=
  View.canon [⟨rTile, k1_pay1 (View.ld x0 rAtt) (View.ld x1 rTile)⟩]

/-- The store covers the buffer. -/
theorem cover1_2 (p0 : Vec F S1x80x10240 .f32) (y : S1x80x10240.Idx) :
    ∃ pc ∈ ([⟨rTile, p0⟩] : List (View.Piece (Elt F) S1x80x10240 .f32)), y ∈ pc.1.set :=
  View.cover_of_tiled [⟨rTile, p0⟩] S1x80x10240.size (by rfl) y

/-! ## The body's triple -/

set_option maxHeartbeats 1000000 in
/-- On whole staging memrefs, the inputs' at contents `x0`, `x1` and the output's at anything, the body runs to the
    continuation holding the inputs' as they were and the output's at the product of the inputs'. -/
theorem sound_kernel1 (c : Dev nD) (E : Set ℕ) (i : grid1.Coords) (arg2 : Memref sig .tc .vmem S1x80x80 .f32) (harg2 : arg2.IsWhole)
    (arg3 : Memref sig .tc .vmem S1x80x10240 .f32) (harg3 : arg3.IsWhole) (arg4 : Memref sig .tc .vmem S1x80x10240 .f32) (harg4 : arg4.IsWhole)
    (x0 : Vec F S1x80x80 .f32) (x1 : Vec F S1x80x10240 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__av_kernel i arg2 harg2 arg3 harg3 arg4 harg4) K := by
  simp only [cc1__av_kernel_eq_skeleton]; unfold cc1__av_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the second pipeline on core `c`: the arrays as the region finds them; after the body at point `t`
    each input's buffer at its block and the output's at the product of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KernelIdealFrame.Run.lean ====
/-
  The whole program's run: host operations, the logits region, the softmax's host operations, the output region, the
  closing host operations.

  The contents of the core's buffers at each of the six boundaries are a fold from the launch memory: a host stretch
  applies its operations; a region leaves its windows' arrays at what its write-backs folded and every other buffer as
  entered. Every weakly fair execution terminates with every unscoped buffer at the last boundary's contents; the
  arguments are read back through the fold to their launch contents (no host operation writes one and no region has one
  among its arrays), which is the frame.
-/
import proofs.«156873_j53326313947745_1_alg».proof.Proof.KernelIdealFrame.Region0
import proofs.«156873_j53326313947745_1_alg».proof.Proof.KernelIdealFrame.Region1
import proofs.«156873_j53326313947745_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the transposes and reshapes of the three inputs (the logits region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the logits region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the softmax's host operations (the output region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the output region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the closing reshape and transpose: the end. -/
abbrev W5 : Dev nD → Valuation τ sig (Elt F) := fun c => StableHlo.after hostOps2 (W4 m c)

/-! ## The arguments end as launched -/

/-- `main_arg0` reaches the end as launched: no host stretch writes it, and it is no array of either region. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (show main_arg0 ∉ hostOps2_W by decide)
    _ = W3 m c (Proc.devRef .tc main_arg0) := W4_of_ne m c main_arg0 (by decide)
    _ = W2 m c (Proc.devRef .tc main_arg0) := StableHlo.after_of_writes_sub hostOps1 _ hostOps1_writes (show main_arg0 ∉ hostOps1_W by decide)
    _ = W1 m c (Proc.devRef .tc main_arg0) := W2_of_ne m c main_arg0 (by decide)
    _ = W0 m c (Proc.devRef .tc main_arg0) := StableHlo.after_of_writes_sub hostOps0 _ hostOps0_writes (show main_arg0 ∉ hostOps0_W by decide)
    _ = m ((c : Thread nD τ).loc main_arg0) := rfl
/-- `main_arg1` reaches the end as launched: no host stretch writes it, and it is no array of either region. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (show main_arg1 ∉ hostOps2_W by decide)
    _ = W3 m c (Proc.devRef .tc main_arg1) := W4_of_ne m c main_arg1 (by decide)
    _ = W2 m c (Proc.devRef .tc main_arg1) := StableHlo.after_of_writes_sub hostOps1 _ hostOps1_writes (show main_arg1 ∉ hostOps1_W by decide)
    _ = W1 m c (Proc.devRef .tc main_arg1) := W2_of_ne m c main_arg1 (by decide)
    _ = W0 m c (Proc.devRef .tc main_arg1) := StableHlo.after_of_writes_sub hostOps0 _ hostOps0_writes (show main_arg1 ∉ hostOps0_W by decide)
    _ = m ((c : Thread nD τ).loc main_arg1) := rfl
/-- `main_arg2` reaches the end as launched: no host stretch writes it, and it is no array of either region. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (show main_arg2 ∉ hostOps2_W by decide)
    _ = W3 m c (Proc.devRef .tc main_arg2) := W4_of_ne m c main_arg2 (by decide)
    _ = W2 m c (Proc.devRef .tc main_arg2) := StableHlo.after_of_writes_sub hostOps1 _ hostOps1_writes (show main_arg2 ∉ hostOps1_W by decide)
    _ = W1 m c (Proc.devRef .tc main_arg2) := W2_of_ne m c main_arg2 (by decide)
    _ = W0 m c (Proc.devRef .tc main_arg2) := StableHlo.after_of_writes_sub hostOps0 _ hostOps0_writes (show main_arg2 ∉ hostOps0_W by decide)
    _ = m ((c : Thread nD τ).loc main_arg2) := rfl

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W5 m c) ∗ ∃ r, prngReg c r)

/-- The two ends of the logits region's invariant, over the scoped rest and the generator register. -/
theorem hin0' (c : Dev nD) : (iprop(Pipeline.scopedRest (Ix := Unit) (Name := ℕ) (U := UR sig nD τ) (Lvl := ℕ) (Val := Elt F) spec0 c ∗ ∃ r, prngReg c r) : sProp 𝕄) ⊢ (pdats m 0 c).Φ 0 :=
  hin0 (V1 m) c
theorem hout0' (c : Dev nD) : (pdats m 0 c).Φ (Fin.last (Pipeline.pin (pcfgs (F := F)) adm 0).N) ⊢ (iprop(Pipeline.scopedRest (Ix := Unit) (Name := ℕ) (U := UR sig nD τ) (Lvl := ℕ) (Val := Elt F) spec0 c ∗ ∃ r, prngReg c r) : sProp 𝕄) :=
  hout0 (V1 m) c

/-! ## The regions as segments -/

set_option backward.isDefEq.respectTransparency.types false in
/-- The logits region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (hin0' m c)
    isplitl [Hr]; · iexact Hr
    iexact Hp
  hout c := by
    rw [Pipeline.ownSems0_none]
    have hout := hout0' m c
    iintro H
    ihave H' := hout $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output region: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory holds every unscoped buffer at the last boundary's contents `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (StableHlo.after hostOps2 (W4 m c)) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c)⟩) (run_main m ρ)

end Cert.KernelIdeal.Fr

end
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.LibMatmulNT.lean ====
/-
  A matrix product that contracts BOTH operands' second axis, read at an entry, at the ideal values.

  For dimension numbers that contract the left operand's columns against the right operand's columns, with no batch
  axis — `[M, K] · [N, K] → [M, N]`, the product `A · Bᵀ` — the product into a zero accumulator has, at row `o` and
  column `t`, the entry `∑ c, A[o, c] · B[t, c]`. The left operand's one free axis is the result's first axis, the
  right operand's one free axis is the result's second axis, and the contraction's index set has one axis; the sum
  over it is re-indexed by that axis's coordinate.
-/
import Idealize.ShloMosaic.PureOps.Ideal.Laws
import Idealize.ShloMosaic.Lib.ValueIdx

noncomputable section

open scoped BigOperators

namespace Cert.LibMatmulNT

open Idealize.ShloMosaic Idealize.ShloMosaic.ValueIdx

variable {M K N : ℕ} (D : DotDims ⟨2, ![M, K]⟩ ⟨2, ![N, K]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's ROW is the result's column: its free axis is its first, and it comes second in the result. -/
theorem rhs_row (hb : D.rhsBatch = []) (hlb : D.lhsBatch = []) (hln : D.lhsNonContracting = [0]) (hn : D.rhsNonContracting = [0])
    (i : (⟨2, ![M, N]⟩ : Shape).Idx) (q : D.contr.Idx) :
    (D.rhsIdx i q 0).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT `A · Bᵀ` AT AN ENTRY. -/
theorem matmul_nt_zero_at {φ₁ φ₂ : FTy} (hlc : D.lhsContracting = [1]) (hrc : D.rhsContracting = [1]) (hlb : D.lhsBatch = [])
    (hrb : D.rhsBatch = []) (hln : D.lhsNonContracting = [0]) (hrn : D.rhsNonContracting = [0])
    (prec : Option ContractPrecision) (A : FVec Ideal ⟨2, ![M, K]⟩ φ₁) (B : FVec Ideal ⟨2, ![N, K]⟩ φ₂) (o : Fin M) (t : Fin N) :
    FloatOps.matmul D prec A B (constant ⟨2, ![M, N]⟩ .f32 0x00000000#32) (ix2 o t) = ∑ c : Fin K, A (ix2 o c) * B (ix2 t c) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 t k :=
    funext fun a => Fin.ext (by
      match a with
      | ⟨0, _⟩ => exact rhs_row D hrb hlb hln hrn _ _
      | ⟨1, _⟩ => exact (D.rhsIdx_val_of_single hrc _ _).trans hk)
  rw [el, er]

end Cert.LibMatmulNT

end
-- ==== Proof.PayAt.lean ====
/-
  The kernels' payloads read at an index, at the ideal values.

  The first kernel accumulates, tile by tile, the logits `S[w, v] = ∑ₖ q[w, k] · k[v, k]` into a scratch: its three
  stores write the zero matrix (first tile), the scratch plus the tile's partial product `A · Bᵀ` (every tile), and the
  scratch with a leading unit axis (last tile). The second kernel writes `att · v` for one block of columns. At the
  ideal values a narrowing format change is the identity and a product into a zero accumulator is an exact sum, so each
  payload at an index is a closed expression in the loaded blocks' entries. Last, the twenty tiles' column ranges
  partition the contraction's 204800 columns.
-/
import proofs.«156873_j53326313947745_1_alg».proof.Proof.Gen.KernelIdeal.Skeleton
import proofs.«156873_j53326313947745_1_alg».proof.Proof.LibMatmulAt
import proofs.«156873_j53326313947745_1_alg».proof.Proof.LibMatmulNT
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.PayAt

open Idealize.ShloMosaic Idealize.ShloMosaic.ValueIdx Cert.KernelIdeal Cert.KernelIdeal.Gen

/-- The zeroing store's payload: the broadcast zero word is the extended real `0` at every entry. -/
theorem pay1_at (w v : Fin 80) : k0_pay1 (F := Ideal) (ix2 w v) = 0 := by
  unfold k0_pay1
  rw [shapeCast_self, broadcast_apply]
  exact Ideal.ofBits_zero_f32

/-- The accumulating store's payload: the scratch entry plus the tile's partial dot product of row `w` of the first
    block with row `v` of the second. -/
theorem pay2_at (x0 x1 : Vec Ideal S1x80x10240 .f32) (s : Vec Ideal S80x80 .f32) (w v : Fin 80) :
    k0_pay2 (F := Ideal) x0 x1 s (ix2 w v) = s (ix2 w v) + ∑ j : Fin 10240, x0 (ix3 0 w j) * x1 (ix3 0 v j) := by
  unfold k0_pay2
  rw [shapeCast_self, addf_apply]
  simp only [matmul]
  rw [Cert.LibMatmulNT.matmul_nt_zero_at dot_S80x10240_S80x10240_S80x80_1_1_0_0_n_n rfl rfl rfl rfl rfl rfl]
  refine congrArg (s (ix2 w v) + ·) (Finset.sum_congr rfl fun c _ => ?_)
  rw [truncf_apply, truncf_apply, shapeCast_1ab_ab_apply, shapeCast_1ab_ab_apply]

/-- The flushing store's payload: the scratch with a leading unit axis. -/
theorem pay3_at (s : Vec Ideal S80x80 .f32) (w v : Fin 80) : k0_pay3 (F := Ideal) s (ix3 0 w v) = s (ix2 w v) := by
  unfold k0_pay3
  exact shapeCast_ab_1ab_apply s _ 0 w v

/-- The second kernel's payload: row `w` of the attention matrix against column `j` of the value block. -/
theorem av_pay_at (a : Vec Ideal S1x80x80 .f32) (x : Vec Ideal S1x80x10240 .f32) (w : Fin 80) (j : Fin 10240) :
    k1_pay1 (F := Ideal) a x (ix3 0 w j) = ∑ v : Fin 80, a (ix3 0 w v) * x (ix3 0 v j) := by
  unfold k1_pay1
  rw [shapeCast_ab_1ab_apply]
  simp only [matmul]
  rw [Cert.LibMatmulAt.matmul_zero_at dot_S80x80_S80x10240_S80x10240_1_0_0_1_n_n rfl rfl rfl rfl rfl rfl]
  refine Finset.sum_congr rfl fun c _ => ?_
  rw [truncf_apply, truncf_apply, shapeCast_1ab_ab_apply, shapeCast_1ab_ab_apply]

/-- Twenty tiles of 10240 columns are the 204800 columns: a sum over the tiles of the sums over each tile's columns
    is the sum over all columns. Only commutativity and associativity of the sum are used, so it holds over the
    extended reals with no finiteness condition. -/
theorem sum_tiles (f : Fin 204800 → EReal) :
    ∑ kt : Fin 20, ∑ j : Fin 10240, f ⟨kt.val * 10240 + j.val, by have := kt.isLt; have := j.isLt; omega⟩
      = ∑ k : Fin 204800, f k := by
  rw [← Equiv.sum_comp ((finProdFinEquiv (m := 20) (n := 10240)).trans (finCongr (by norm_num : 20 * 10240 = 204800))) f,
    Fintype.sum_prod_type]
  refine Finset.sum_congr rfl fun kt _ => Finset.sum_congr rfl fun j _ => congrArg f (Fin.ext ?_)
  show kt.val * 10240 + j.val = j.val + 10240 * kt.val
  omega

end Cert.KernelIdeal.PayAt

end
-- ==== Proof.QkValue.lean ====
/-
  The first kernel region's result, at the ideal values: the logits array holds the whole contraction.

  The region runs over the points (batch b, tile kt), point number t = 20·b + kt. Its body keeps an 80 × 80 accumulator:
  at a batch's first tile it is reset to the zero matrix plus the tile's product q_tile · k_tileᵀ, at every later tile
  the tile's product is added to it, and at the batch's last tile it is copied, with a leading unit axis, to the output
  block (b, 0, 0), which is then written back. Read at an entry (w, v), each tile's product is the sum over the tile's
  10240 columns of q[b, w, ·] · k[b, v, ·]; the tile at point t covers the columns (t mod 20)·10240 … of batch
  (t div 20). So after the last tile of batch b the accumulator holds, at (w, v), the sum over the twenty tiles of the
  sums over their columns, which is the sum over all 204800 columns; and the output array, whose blocks are written at
  the two last tiles only, holds that at (b, w, v).

  The steps: each found piece of the runs read back as a payload (generic in the float instance); the accumulator after
  a point as a fold over its batch's points so far; the fold opened at an entry at the ideal values; each input tile
  read where it sits in its array; the re-indexing of tiles × columns to columns; the output array from its two
  write-backs.
-/
import proofs.«156873_j53326313947745_1_alg».proof.Proof.KernelIdealFrame.Region0
import proofs.«156873_j53326313947745_1_alg».proof.Proof.PayAt
import Idealize.ShloMosaic.Lib.Pipeline.Value
import Idealize.ShloMosaic.Lib.ValueIdx
import Idealize.ShloMosaic.Lib.Tactic

set_option maxRecDepth 16384

noncomputable section

open scoped BigOperators

namespace Cert.KernelIdeal.Val

open Idealize.ShloMosaic Idealize.ShloMosaic.TcCoe Idealize.ShloMosaic.Tactic Idealize.SL.Sem
open Idealize.ShloMosaic.ValueIdx
open Idealize.ShloMosaic.Pipeline (Dat Cfg Window)
open Cert.KernelIdeal Cert.KernelIdeal.Gen Cert.KernelIdeal.Fr Cert.KernelIdeal.PayAt

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile leaves in the accumulator what it held plus the tile's product. -/
theorem sout_B (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : ¬cond0_1 i)
    (x0 x1 : Vec F S1x80x10240 .f32) (xs0 : Vec F S80x80 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S1x80x10240) hz3, View.ld_unit_zero (S := S80x80) hz2]

/-- A batch's last tile leaves in the accumulator what it held plus the tile's product … -/
theorem sout_C (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : cond0_1 i)
    (x0 x1 : Vec F S1x80x10240 .f32) (xs0 : Vec F S80x80 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S1x80x10240) hz3, View.ld_unit_zero (S := S80x80) hz2]

/-- … and in the output block that sum with a leading unit axis. -/
theorem out_C (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : cond0_1 i)
    (x0 x1 : Vec F S1x80x10240 .f32) (xs0 : Vec F S80x80 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3]
  simp only [View.readAt_eq_ld, harg2.read_unread, harg3.read_unread, harg5.read_unread,
    View.ld_unit_zero (S := S1x80x10240) hz3, View.ld_unit_zero (S := S80x80) hz2, View.readCov_unit_zero (S := S80x80) _ hz2]

/-- A batch's first tile leaves in the accumulator the zero fill plus the tile's product. -/
theorem sout_A (c : Dev nD) (i : grid0.Coords) (arg2 : Memref sig .tc .vmem S1x80x10240 .f32) (harg2 : arg2.IsWhole) (arg3 : Memref sig .tc .vmem S1x80x10240 .f32) (harg3 : arg3.IsWhole) (arg4 : Memref sig .tc .vmem S1x80x80 .f32) (harg4 : arg4.IsWhole) (arg5 : Memref sig .tc .vmem S80x80 .f32) (harg5 : arg5.IsWhole) (hc0 : cond0_0 i) (hc1 : ¬cond0_1 i)
    (x0 x1 : Vec F S1x80x10240 .f32) :
    sout0_A_0 c i arg2 harg2 arg3 harg3 arg4 harg4 arg5 harg5 hc0 hc1 x0 x1 = k0_pay2 x0 x1 k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S80x80) hz2, View.readCov_unit_zero (S := S80x80) _ hz2]
  simp only [View.readAt_eq_ld, harg2.read_unread, harg3.read_unread,
    View.ld_unit_zero (S := S1x80x10240) hz3, View.ld_unit_zero (S := S80x80) hz2]

/-! ## The tiles and the arrays at their literal types -/

section Generic
variable (V : (c : Dev nD) → (b : Ref sig .tc) → Buf (Elt F) ((c : Thread nD τ).loc b))

/-- The first input's tile at a point. -/
abbrev qblk (c : Dev nD) (t : Fin cfg0.N) : Vec F S1x80x10240 .f32 := iblk0 V c 0 t
/-- The second input's tile at a point. -/
abbrev kblk (c : Dev nD) (t : Fin cfg0.N) : Vec F S1x80x10240 .f32 := iblk0 V c 1 t
/-- The first input array as the region finds it. -/
abbrev qarr (c : Dev nD) : Vec F S2x80x204800 .f32 := V c main_v1
/-- The second input array as the region finds it. -/
abbrev karr (c : Dev nD) : Vec F S2x80x204800 .f32 := V c main_v3
/-- The accumulator after position `n`. -/
abbrev accAfter (c : Dev nD) (n : ℕ) (h : n < cfg0.N) : Vec F S80x80 .f32 := (outsAt0 V c n h).2

/-- At a batch's first tile the accumulator is reset: the zero fill plus the tile's product. -/
theorem acc_reset (c : Dev nD) (n : ℕ) (h : n < cfg0.N) (h0 : n % 20 = 0) :
    accAfter V c n h = k0_pay2 (qblk V c ⟨n, h⟩) (kblk V c ⟨n, h⟩) k0_pay1 := by
  have h0' : (⟨n, h⟩ : Fin cfg0.N).val % 20 = 0 := h0
  have h1 : ¬(⟨n, h⟩ : Fin cfg0.N).val % 20 = 19 := by dsimp only; omega
  show (outsAt0 V c (⟨n, h⟩ : Fin cfg0.N).val (⟨n, h⟩ : Fin cfg0.N).isLt).2 = _
  rw [outsAt0_A V c ⟨n, h⟩ h0' h1]
  dsimp only
  exact sout_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) ((hcond0_0 ⟨n, h⟩).mpr h0') (fun hh => h1 ((hcond0_1 ⟨n, h⟩).mp hh)) (qblk V c ⟨n, h⟩) (kblk V c ⟨n, h⟩)

/-- At every other tile the accumulator steps: what the point before left plus the tile's product. -/
theorem acc_step (c : Dev nD) (n : ℕ) (h : n + 1 < cfg0.N) (h0 : ¬(n + 1) % 20 = 0) :
    accAfter V c (n + 1) h
      = k0_pay2 (qblk V c ⟨n + 1, h⟩) (kblk V c ⟨n + 1, h⟩) (accAfter V c n (Nat.lt_of_succ_lt h)) := by
  have h0' : ¬(⟨n + 1, h⟩ : Fin cfg0.N).val % 20 = 0 := h0
  by_cases h1 : (⟨n + 1, h⟩ : Fin cfg0.N).val % 20 = 19
  · show (outsAt0 V c (⟨n + 1, h⟩ : Fin cfg0.N).val (⟨n + 1, h⟩ : Fin cfg0.N).isLt).2 = _
    rw [outsAt0_C V c ⟨n + 1, h⟩ h0' h1]
    dsimp only
    exact sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0' ((hcond0_0 ⟨n + 1, h⟩).mp hh)) ((hcond0_1 ⟨n + 1, h⟩).mpr h1) (qblk V c ⟨n + 1, h⟩) (kblk V c ⟨n + 1, h⟩) (accAfter V c n (Nat.lt_of_succ_lt h))
  · show (outsAt0 V c (⟨n + 1, h⟩ : Fin cfg0.N).val (⟨n + 1, h⟩ : Fin cfg0.N).isLt).2 = _
    rw [outsAt0_B V c ⟨n + 1, h⟩ h0' h1]
    dsimp only
    exact sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0' ((hcond0_0 ⟨n + 1, h⟩).mp hh)) (fun hh => h1 ((hcond0_1 ⟨n + 1, h⟩).mp hh)) (qblk V c ⟨n + 1, h⟩) (kblk V c ⟨n + 1, h⟩) (accAfter V c n (Nat.lt_of_succ_lt h))

/-- At a batch's last tile the output block is the accumulator with a leading unit axis. -/
theorem out_last (c : Dev nD) (t : Fin cfg0.N) (h19 : t.val % 20 = 19) :
    (outsAt0 V c t.val t.isLt).1 = k0_pay3 (accAfter V c t.val t.isLt) := by
  have h0 : ¬t.val % 20 = 0 := by omega
  show (outsAt0 V c t.val t.isLt).1 = k0_pay3 (outsAt0 V c t.val t.isLt).2
  rw [outsAt0_C V c t h0 h19]
  dsimp only
  rw [sout_C c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h19) (qblk V c t) (kblk V c t) (outsAt0 V c (t.val - 1) (Nat.lt_of_le_of_lt (Nat.sub_le _ _) t.isLt)).2]
  exact out_C c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h19) (qblk V c t) (kblk V c t) (outsAt0 V c (t.val - 1) (Nat.lt_of_le_of_lt (Nat.sub_le _ _) t.isLt)).2

end Generic

/-! ## Where a tile sits in its array -/

/-- The batch a position belongs to. -/
abbrev tileB (n : ℕ) : Fin 2 := ⟨n / 20 % 2, Nat.mod_lt _ (by decide)⟩
/-- Column `j` of the tile at position `n`, as a column of the array. -/
abbrev tileCol (n : ℕ) (j : Fin 10240) : Fin 204800 := ⟨n % 20 * 10240 + j.val, by have := j.isLt; have := Nat.mod_lt n (show 0 < 20 by decide); omega⟩

/-- The three windows' block indices over the grid: (batch, 0, tile) for the inputs, (batch, 0, 0) for the output. -/
theorem index0_0 : ∀ t : Fin cfg0.N, win0_0.index t 0 = t.val / 20 % 2 ∧ win0_0.index t 1 = 0 ∧ win0_0.index t 2 = t.val % 20 :=
  (by decide +kernel : ∀ t : Fin grid0.N, win0_0.index t 0 = t.val / 20 % 2 ∧ win0_0.index t 1 = 0 ∧ win0_0.index t 2 = t.val % 20)
theorem index0_1 : ∀ t : Fin cfg0.N, win0_1.index t 0 = t.val / 20 % 2 ∧ win0_1.index t 1 = 0 ∧ win0_1.index t 2 = t.val % 20 :=
  (by decide +kernel : ∀ t : Fin grid0.N, win0_1.index t 0 = t.val / 20 % 2 ∧ win0_1.index t 1 = 0 ∧ win0_1.index t 2 = t.val % 20)
theorem index0_2 : ∀ t : Fin cfg0.N, win0_2.index t 0 = t.val / 20 % 2 ∧ win0_2.index t 1 = 0 ∧ win0_2.index t 2 = 0 :=
  (by decide +kernel : ∀ t : Fin grid0.N, win0_2.index t 0 = t.val / 20 % 2 ∧ win0_2.index t 1 = 0 ∧ win0_2.index t 2 = 0)

section Generic2
variable (V : (c : Dev nD) → (b : Ref sig .tc) → Buf (Elt F) ((c : Thread nD τ).loc b))

/-- An entry of the first input's tile is the array's entry in the tile's batch and column range. -/
theorem qblk_at (c : Dev nD) (t : Fin cfg0.N) (w : Fin 80) (j : Fin 10240) :
    qblk V c t (ix3 0 w j) = qarr V c (ix3 (tileB t.val) w (tileCol t.val j)) := by
  obtain ⟨i0, i1, i2⟩ := index0_0 t
  show iblk0 V c 0 t (ix3 0 w j) = V c main_v1 _
  unfold iblk0
  rw [View.read_apply]
  show V c main_v1 _ = V c main_v1 _
  congr 1
  funext a
  apply Fin.ext
  match a with
  | ⟨0, _⟩ => show win0_0.index t 0 * 1 + 1 * 0 = t.val / 20 % 2; rw [i0]; omega
  | ⟨1, _⟩ => show win0_0.index t 1 * 80 + 1 * w.val = w.val; rw [i1]; omega
  | ⟨2, _⟩ => show win0_0.index t 2 * 10240 + 1 * j.val = t.val % 20 * 10240 + j.val; rw [i2]; omega

/-- An entry of the second input's tile likewise. -/
theorem kblk_at (c : Dev nD) (t : Fin cfg0.N) (w : Fin 80) (j : Fin 10240) :
    kblk V c t (ix3 0 w j) = karr V c (ix3 (tileB t.val) w (tileCol t.val j)) := by
  obtain ⟨i0, i1, i2⟩ := index0_1 t
  show iblk0 V c 1 t (ix3 0 w j) = V c main_v3 _
  unfold iblk0
  rw [View.read_apply]
  show V c main_v3 _ = V c main_v3 _
  congr 1
  funext a
  apply Fin.ext
  match a with
  | ⟨0, _⟩ => show win0_1.index t 0 * 1 + 1 * 0 = t.val / 20 % 2; rw [i0]; omega
  | ⟨1, _⟩ => show win0_1.index t 1 * 80 + 1 * w.val = w.val; rw [i1]; omega
  | ⟨2, _⟩ => show win0_1.index t 2 * 10240 + 1 * j.val = t.val % 20 * 10240 + j.val; rw [i2]; omega

end Generic2

/-! ## The accumulation at the ideal values -/

section AtIdeal
variable (V : (c : Dev nD) → (b : Ref sig .tc) → Buf (Elt Ideal) ((c : Thread nD τ).loc b))

/-- One tile's share of the logit at `(w, v)`: the tile's columns of row `w` of the first array against row `v` of
    the second, in the tile's batch. -/
def tileDot (c : Dev nD) (n : ℕ) (w v : Fin 80) : EReal :=
  ∑ j : Fin 10240, qarr V c (ix3 (tileB n) w (tileCol n j)) * karr V c (ix3 (tileB n) v (tileCol n j))

/-- The logit at `(b, w, v)`: the whole contraction. -/
def logit (c : Dev nD) (b : Fin 2) (w v : Fin 80) : EReal :=
  ∑ k : Fin 204800, qarr V c (ix3 b w k) * karr V c (ix3 b v k)

/-- The tile's product at an entry is the tile's share. -/
theorem tile_sum (c : Dev nD) (t : Fin cfg0.N) (w v : Fin 80) :
    ∑ j : Fin 10240, qblk V c t (ix3 0 w j) * kblk V c t (ix3 0 v j) = tileDot V c t.val w v :=
  Finset.sum_congr rfl fun j _ => by rw [qblk_at V c t w j, kblk_at V c t v j]

/-- The reset at an entry: zero plus the tile's share. -/
theorem reset_at (c : Dev nD) (n : ℕ) (h : n < cfg0.N) (i : S80x80.Idx) :
    k0_pay2 (qblk V c ⟨n, h⟩) (kblk V c ⟨n, h⟩) (k0_pay1 (F := Ideal)) i = (fun _ => (0 : EReal)) i + tileDot V c n (i 0) (i 1) := by
  obtain ⟨w, v, rfl⟩ : ∃ (w v : Fin 80), i = ix2 w v := ⟨i 0, i 1, eq_ix2 i⟩
  refine (pay2_at (qblk V c ⟨n, h⟩) (kblk V c ⟨n, h⟩) (k0_pay1 (F := Ideal)) w v).trans ?_
  rw [pay1_at w v, tile_sum V c ⟨n, h⟩ w v]

/-- The step at an entry: what was there plus the tile's share. -/
theorem step_at (c : Dev nD) (n : ℕ) (h : n < cfg0.N) (acc : Vec Ideal S80x80 .f32) (i : S80x80.Idx) :
    k0_pay2 (qblk V c ⟨n, h⟩) (kblk V c ⟨n, h⟩) acc i = acc i + tileDot V c n (i 0) (i 1) := by
  obtain ⟨w, v, rfl⟩ : ∃ (w v : Fin 80), i = ix2 w v := ⟨i 0, i 1, eq_ix2 i⟩
  refine (pay2_at (qblk V c ⟨n, h⟩) (kblk V c ⟨n, h⟩) acc w v).trans ?_
  rw [tile_sum V c ⟨n, h⟩ w v]

/-- The twenty tiles' shares of a batch add up to the logit. -/
theorem tiles_logit (c : Dev nD) (b : Fin 2) (w v : Fin 80) :
    ∑ s ∈ Finset.range 20, tileDot V c (20 * b.val + s) w v = logit V c b w v := by
  rw [Finset.sum_range]
  unfold logit
  rw [← sum_tiles fun k => qarr V c (ix3 b w k) * karr V c (ix3 b v k)]
  refine Finset.sum_congr rfl fun kt _ => ?_
  unfold tileDot
  refine Finset.sum_congr rfl fun j _ => ?_
  have hb : tileB (20 * b.val + kt.val) = b := Fin.ext (by have := b.isLt; have := kt.isLt; show (20 * b.val + kt.val) / 20 % 2 = b.val; omega)
  have hc : tileCol (20 * b.val + kt.val) j = ⟨kt.val * 10240 + j.val, by have := kt.isLt; have := j.isLt; omega⟩ :=
    Fin.ext (by have := kt.isLt; show (20 * b.val + kt.val) % 20 * 10240 + j.val = kt.val * 10240 + j.val; rw [Nat.mul_add_mod, Nat.mod_eq_of_lt kt.isLt])
  rw [hb, hc]

/-- THE ACCUMULATOR AFTER A BATCH'S LAST TILE holds the batch's logits. -/
theorem acc_last (c : Dev nD) (b : Fin 2) (h : 20 * b.val + 19 < cfg0.N) (w v : Fin 80) :
    accAfter V c (20 * b.val + 19) h (ix2 w v) = logit V c b w v := by
  have e := Pipeline.eq_accAt (fun n hn => accAfter V c n hn) 20
    (fun n hn => k0_pay2 (qblk V c ⟨n, hn⟩) (kblk V c ⟨n, hn⟩) (k0_pay1 (F := Ideal)))
    (fun n hn acc => k0_pay2 (qblk V c ⟨n, hn⟩) (kblk V c ⟨n, hn⟩) acc)
    (fun n hn h0 => acc_reset V c n hn h0) (fun n hn h0 => acc_step V c n hn h0) b.val 19 (by decide) h
  have s := Pipeline.accAt_add_apply
    (fun n hn => k0_pay2 (qblk V c ⟨n, hn⟩) (kblk V c ⟨n, hn⟩) (k0_pay1 (F := Ideal)))
    (fun n hn acc => k0_pay2 (qblk V c ⟨n, hn⟩) (kblk V c ⟨n, hn⟩) acc)
    (fun _ => (0 : EReal)) (fun n i => tileDot V c n (i 0) (i 1)) (20 * b.val) 19
    (fun hn i => reset_at V c (20 * b.val) hn i) (fun n hn acc i _ _ => step_at V c n hn acc i) 19 (Nat.le_refl _) h (ix2 w v)
  refine (congrFun e (ix2 w v)).trans (s.trans ?_)
  rw [zero_add]
  exact tiles_logit V c b w v

end AtIdeal

/-! ## The output array after the region -/

section Final
variable (V : (c : Dev nD) → (b : Ref sig .tc) → Buf (Elt Ideal) ((c : Thread nD τ).loc b))

/-- The logits as contents of the output array. -/
def logits (c : Dev nD) : Vec Ideal S2x80x80 .f32 := fun i => logit V c (i 0) (i 1) (i 2)

theorem accAfter_congr (c : Dev nD) (n m : ℕ) (hn : n < cfg0.N) (hm : m < cfg0.N) (e : n = m) :
    accAfter V c n hn = accAfter V c m hm := by subst e; rfl

/-- What a batch's last tile writes back, at an entry: the batch's logit there. -/
theorem flushed_at (c : Dev nD) (t : Fin cfg0.N) (h19 : t.val % 20 = 19) (u : Fin 1) (w v : Fin 80) :
    (dat0 V c).flushed 2 t (ix3 u w v) = logit V c (tileB t.val) w v := by
  have hN : cfg0.N = 40 := N_0
  have ht : 20 * (tileB t.val).val + 19 < cfg0.N := by have := (tileB t.val).isLt; omega
  have et : t.val = 20 * (tileB t.val).val + 19 := by have := t.isLt; show t.val = 20 * (t.val / 20 % 2) + 19; omega
  obtain rfl : u = 0 := Subsingleton.elim _ _
  show (cfg0.win 2).cut (grid0.coords t) ((dat0 V c).after 2 t) (ix3 0 w v) = _
  rw [after0_2, out_last V c t h19]
  show k0_pay3 (accAfter V c t.val t.isLt) (ix3 0 w v) = _
  refine (pay3_at (accAfter V c t.val t.isLt) w v).trans ?_
  rw [accAfter_congr V c t.val (20 * (tileB t.val).val + 19) t.isLt ht et]
  exact acc_last V c (tileB t.val) ht w v

/-- Contents of the output array read through the output window's block at a point: the block's batch is the point's. -/
theorem out_blk_read (G : Vec Ideal S2x80x80 .f32) (t : Fin cfg0.N) (u : Fin 1) (w v : Fin 80) :
    ((cfg0.win 2).blk t).view.read (Elt Ideal) G (ix3 u w v) = G (ix3 (tileB t.val) w v) := by
  obtain ⟨i0, i1, i2⟩ := index0_2 t
  rw [View.read_apply]
  show G _ = G _
  congr 1
  funext a
  apply Fin.ext
  match a with
  | ⟨0, _⟩ => show win0_2.index t 0 * 1 + 1 * u.val = t.val / 20 % 2; rw [i0]; omega
  | ⟨1, _⟩ => show win0_2.index t 1 * 80 + 1 * w.val = w.val; rw [i1]; omega
  | ⟨2, _⟩ => show win0_2.index t 2 * 80 + 1 * v.val = v.val; rw [i2]; omega

theorem logits_ix3 (c : Dev nD) (b : Fin 2) (w v : Fin 80) : logits V c (ix3 b w v) = logit V c b w v := rfl

/-- The logits read through the output window's block at a point: the block's batch is the point's. -/
theorem logits_blk (c : Dev nD) (t : Fin cfg0.N) (u : Fin 1) (w v : Fin 80) :
    ((cfg0.win 2).blk t).view.read (Elt Ideal) (logits V c) (ix3 u w v) = logit V c (tileB t.val) w v :=
  (out_blk_read (logits V c) t u w v).trans (logits_ix3 V c (tileB t.val) w v)

/-- What a flushing point writes back is its block of the logits. -/
theorem flushed_eq (c : Dev nD) (t : Fin cfg0.N) (hf : (cfg0.win 2).flush t = true) :
    (dat0 V c).flushed 2 t = ((cfg0.win 2).blk t).view.read (Elt Ideal) (logits V c) := by
  have h19 := (flush0_2 t).mp hf
  have key : ∀ y : S1x80x80.Idx, (dat0 V c).flushed 2 t y = ((cfg0.win 2).blk t).view.read (Elt Ideal) (logits V c) y := by
    intro y
    obtain ⟨u, w, v, rfl⟩ : ∃ (u : Fin 1) (w v : Fin 80), y = ix3 u w v := ⟨y 0, y 1, y 2, eq_ix3 y⟩
    rw [flushed_at V c t h19 u w v, logits_blk V c t u w v]
  exact funext key

/-- THE REGION'S RESULT: the output array holds, at `(b, w, v)`, the whole contraction of row `w` of the first array's
    batch `b` with row `v` of the second's. -/
theorem qk_final (c : Dev nD) (b : Fin 2) (w v : Fin 80) :
    (dat0 (F := Ideal) V c).arrAt 2 cfg0.N (ix3 b w v) = ∑ k : Fin 204800, qarr V c (ix3 b w k) * karr V c (ix3 b v k) := by
  have hN : cfg0.N = 40 := N_0
  have ht : 20 * b.val + 19 < cfg0.N := by have := b.isLt; omega
  have h19 : (⟨20 * b.val + 19, ht⟩ : Fin cfg0.N).val % 20 = 19 := by show (20 * b.val + 19) % 20 = 19; omega
  obtain ⟨i0, i1, i2⟩ := index0_2 ⟨20 * b.val + 19, ht⟩
  refine ((dat0 V c).arrAt_apply_of_mem 2 (logits V c) (flushed_eq V c) cfg0.N ⟨20 * b.val + 19, ht⟩ (ix3 b w v) ht ((flush0_2 _).mpr h19) ?_).trans rfl
  show ix3 b w v ∈ ((View.whole main_v6).slice (win0_2.rect ⟨20 * b.val + 19, ht⟩)).set
  rw [View.set_slice_whole, Rect.mem_set_unit]
  intro a
  match a with
  | ⟨0, _⟩ => show win0_2.index _ 0 * 1 ≤ b.val ∧ b.val < win0_2.index _ 0 * 1 + 1; rw [i0]; dsimp only; omega
  | ⟨1, _⟩ => show win0_2.index _ 1 * 80 ≤ w.val ∧ w.val < win0_2.index _ 1 * 80 + 80; rw [i1]; omega
  | ⟨2, _⟩ => show win0_2.index _ 2 * 80 ≤ v.val ∧ v.val < win0_2.index _ 2 * 80 + 80; rw [i2]; omega

end Final

end Cert.KernelIdeal.Val

end
-- ==== Proof.AvValue.lean ====
/-
  The output region's array, at the ideal values: out[b, w, k] = ∑ᵥ att[b, w, v] · val[b, v, k].

  The region runs one grid point per (batch b, tile of 10240 columns). At a point the body multiplies the batch's 80 × 80
  attention block with the point's 80 × 10240 tile of the values into a zero accumulator and overwrites its output tile
  with the product; every point writes its tile back. So what a point writes back is its block of ONE function of the
  whole arrays, the product array, and the points' blocks cover the output: the array ends holding the product.
-/
import proofs.«156873_j53326313947745_1_alg».proof.Proof.KernelIdealFrame.Region1
import proofs.«156873_j53326313947745_1_alg».proof.Proof.PayAt
import Idealize.ShloMosaic.Lib.Pipeline.Value
import Idealize.ShloMosaic.Lib.ValueIdx

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr Cert.KernelIdeal.PayAt

variable (V : (c : Dev nD) → (b : Ref sig .tc) → Buf (Elt Ideal) ((c : Thread nD τ).loc b))

/-! ## The two arrays and their product -/

/-- The attention array as the region finds it, at its literal type. -/
abbrev attArr (c : Dev nD) : Vec Ideal S2x80x80 .f32 := V c main_v17

/-- The values array as the region finds it, at its literal type. -/
abbrev valArr (c : Dev nD) : Vec Ideal S2x80x204800 .f32 := V c main_v5

namespace Av

/-- Entry `(b, w, k)` of the product: row `w` of batch `b`'s attention matrix against column `k` of its values. -/
def avAt (c : Dev nD) (b : Fin 2) (w : Fin 80) (k : Fin 204800) : EReal :=
  ∑ v : Fin 80, attArr V c (ix3 b w v) * valArr V c (ix3 b v k)

/-- The product array, index by index. -/
def avG (c : Dev nD) : S2x80x204800.Idx → EReal := fun i => avAt V c (i 0) (i 1) (i 2)

/-- The product array at an index whose coordinates are known. -/
theorem avG_at (c : Dev nD) (i : S2x80x204800.Idx) (b : Fin 2) (w : Fin 80) (k : Fin 204800)
    (h0 : (i 0).val = b.val) (h1 : (i 1).val = w.val) (h2 : (i 2).val = k.val) : avG V c i = avAt V c b w k := by
  have e : i = ix3 b w k := funext fun a => Fin.ext (by
    match a with
    | ⟨0, _⟩ => exact h0
    | ⟨1, _⟩ => exact h1
    | ⟨2, _⟩ => exact h2)
  subst e
  rfl

/-! ## The index maps over the grid -/

theorem zero3 : (![0, 0, 0] : Fin 3 → Nat) = fun _ => 0 := funext fun a => by fin_cases a <;> rfl

/-- The three index maps, decided over the forty points: the attention block follows the output's batch and sits at
    the origin of its two matrix axes; the values tile follows the output's batch and column tile; the output's block
    index is (batch, 0, column tile) with the batch below 2 and the tile below 20. -/
theorem index_facts : ∀ t : Fin cfg1.N,
    win1_0.index t (0 : Fin 3) = win1_2.index t (0 : Fin 3) ∧ win1_0.index t (1 : Fin 3) = 0 ∧ win1_0.index t (2 : Fin 3) = 0
    ∧ win1_1.index t (0 : Fin 3) = win1_2.index t (0 : Fin 3) ∧ win1_1.index t (1 : Fin 3) = 0
    ∧ win1_1.index t (2 : Fin 3) = win1_2.index t (2 : Fin 3)
    ∧ win1_2.index t (0 : Fin 3) ≤ 1 ∧ win1_2.index t (1 : Fin 3) = 0 ∧ win1_2.index t (2 : Fin 3) ≤ 19 :=
  (by decide +kernel : ∀ t : Fin grid1.N, _)

/-- Every (batch, column tile) is some point's output block. -/
theorem index_onto : ∀ (q0 : Fin 2) (q2 : Fin 20), ∃ t : Fin cfg1.N, win1_2.index t = ![q0.val, 0, q2.val] :=
  (by decide +kernel : ∀ (q0 : Fin 2) (q2 : Fin 20), ∃ t : Fin grid1.N, win1_2.index t = ![q0.val, 0, q2.val])

/-! ## The input blocks, read where they sit in their arrays -/

/-- The attention block at point `t` is batch `b`'s matrix, `b` the output block's batch. -/
theorem att_block (c : Dev nD) (t : Fin cfg1.N) (b : Fin 2) (hb : b.val = win1_2.index t (0 : Fin 3)) (w v : Fin 80) :
    iblk1 V c 0 t (ix3 0 w v) = attArr V c (ix3 b w v) := by
  obtain ⟨e0, e1, e2, -⟩ := index_facts t
  show attArr V c (((cfg1.win 0).blk t).view.emb (ix3 0 w v)) = attArr V c (ix3 b w v)
  refine congrArg (attArr V c) (funext fun a => Fin.ext ?_)
  match a with
  | ⟨0, _⟩ => show win1_0.index t (0 : Fin 3) * 1 + 1 * 0 = b.val; omega
  | ⟨1, _⟩ => show win1_0.index t (1 : Fin 3) * 80 + 1 * w.val = w.val; omega
  | ⟨2, _⟩ => show win1_0.index t (2 : Fin 3) * 80 + 1 * v.val = v.val; omega

/-- The values tile at point `t` is rows of batch `b` at the columns of the output block's tile. -/
theorem val_block (c : Dev nD) (t : Fin cfg1.N) (b : Fin 2) (hb : b.val = win1_2.index t (0 : Fin 3)) (k : Fin 204800)
    (j : Fin 10240) (hk : k.val = win1_2.index t (2 : Fin 3) * 10240 + j.val) (v : Fin 80) :
    iblk1 V c 1 t (ix3 0 v j) = valArr V c (ix3 b v k) := by
  obtain ⟨-, -, -, e0, e1, e2, -⟩ := index_facts t
  show valArr V c (((cfg1.win 1).blk t).view.emb (ix3 0 v j)) = valArr V c (ix3 b v k)
  refine congrArg (valArr V c) (funext fun a => Fin.ext ?_)
  match a with
  | ⟨0, _⟩ => show win1_1.index t (0 : Fin 3) * 1 + 1 * 0 = b.val; omega
  | ⟨1, _⟩ => show win1_1.index t (1 : Fin 3) * 80 + 1 * v.val = v.val; omega
  | ⟨2, _⟩ => show win1_1.index t (2 : Fin 3) * 10240 + 1 * j.val = k.val; omega

/-! ## What a point writes back -/

/-- What point `t` writes back is block `t` of the product array. -/
theorem flushed_eq (c : Dev nD) (t : Fin cfg1.N) :
    (dat1 (F := Ideal) V c).flushed 2 t = ((cfg1.win 2).blk t).view.read (Elt Ideal) (avG V c) := by
  show (cfg1.win 2).cut (cfg1.grid.coords t) ((dat1 V c).after 2 t) = _
  rw [after1_2]
  unfold out1_2
  rw [View.canon_unit_zero zero3]
  simp only [View.ld_unit_zero (S := S1x80x80) zero3, View.ld_unit_zero (S := S1x80x10240) zero3]
  funext y
  obtain ⟨z, w, j, rfl⟩ : ∃ (z : Fin 1) (w : Fin 80) (j : Fin 10240), y = ix3 z w j := ⟨y 0, y 1, y 2, eq_ix3 y⟩
  obtain rfl : z = 0 := Subsingleton.elim _ _
  obtain ⟨-, -, -, -, -, -, b0, e1, b2⟩ := index_facts t
  have hj : j.val < 10240 := j.isLt
  show k1_pay1 (F := Ideal) (iblk1 V c 0 t) (iblk1 V c 1 t) (ix3 0 w j) = avG V c (((cfg1.win 2).blk t).view.emb (ix3 0 w j))
  refine (av_pay_at (iblk1 V c 0 t) (iblk1 V c 1 t) w j).trans ?_
  refine Eq.trans ?_ (avG_at V c _ ⟨win1_2.index t (0 : Fin 3), by omega⟩ w
    ⟨win1_2.index t (2 : Fin 3) * 10240 + j.val, by omega⟩ ?_ ?_ ?_).symm
  · exact Finset.sum_congr rfl fun v _ => congrArg₂ (· * ·) (att_block V c t _ rfl w v) (val_block V c t _ rfl _ j rfl v)
  · show win1_2.index t (0 : Fin 3) * 1 + 1 * 0 = win1_2.index t (0 : Fin 3); omega
  · show win1_2.index t (1 : Fin 3) * 80 + 1 * w.val = w.val; omega
  · show win1_2.index t (2 : Fin 3) * 10240 + 1 * j.val = win1_2.index t (2 : Fin 3) * 10240 + j.val; omega

/-! ## The blocks cover the array -/

/-- An index of the output array is in point `t`'s block iff each coordinate is in the block's range on its axis. -/
theorem mem_block (t : Fin cfg1.N) (i : S2x80x204800.Idx) :
    i ∈ ((cfg1.win 2).blk t).view.set ↔ ∀ a : Fin 3, win1_2.index t a * S1x80x10240.size a ≤ (i a).val
      ∧ (i a).val < win1_2.index t a * S1x80x10240.size a + S1x80x10240.size a := by
  show i ∈ ((View.whole main_v18).slice (win1_2.rect t)).set ↔ _
  rw [View.set_slice_whole, Rect.mem_set_unit]
  exact Iff.rfl

/-- Every index `(b, w, k)` is in the block of the point at batch `b` and column tile `k / 10240`. -/
theorem covered (i : S2x80x204800.Idx) :
    ∃ t : Fin cfg1.N, (cfg1.win 2).flush t = true ∧ i ∈ ((cfg1.win 2).blk t).view.set := by
  have hi0 : (i 0).val < 2 := (i 0).isLt
  have hi1 : (i 1).val < 80 := (i 1).isLt
  have hi2 : (i 2).val < 204800 := (i 2).isLt
  obtain ⟨t, ht⟩ := index_onto ⟨(i 0).val, hi0⟩ ⟨(i 2).val / 10240, by omega⟩
  have q0 : win1_2.index t (0 : Fin 3) = (i 0).val := congrFun ht 0
  have q1 : win1_2.index t (1 : Fin 3) = 0 := congrFun ht 1
  have q2 : win1_2.index t (2 : Fin 3) = (i 2).val / 10240 := congrFun ht 2
  refine ⟨t, flush1_2 t, ?_⟩
  rw [mem_block]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 80 ≤ (i 1).val ∧ (i 1).val < win1_2.index t (1 : Fin 3) * 80 + 80; omega
  | ⟨2, _⟩ => show win1_2.index t (2 : Fin 3) * 10240 ≤ (i 2).val ∧ (i 2).val < win1_2.index t (2 : Fin 3) * 10240 + 10240; omega

/-! ## The array after the region -/

/-- After the region the output array is the product array. -/
theorem array_eq (c : Dev nD) : (dat1 (F := Ideal) V c).arrAt 2 cfg1.N = avG V c :=
  (dat1 (F := Ideal) V c).arrAt_eq_of_cover 2 (avG V c) (fun t _ => flushed_eq V c t) covered

end Av

/-- After the region, entry `(b, w, k)` of the output array is `∑ᵥ att[b, w, v] · val[b, v, k]`. -/
theorem av_final (c : Dev nD) (b : Fin 2) (w : Fin 80) (k : Fin 204800) :
    (dat1 (F := Ideal) V c).arrAt 2 cfg1.N (ix3 b w k) = ∑ v : Fin 80, attArr V c (ix3 b w v) * valArr V c (ix3 b v k) :=
  (congrFun (Av.array_eq V c) (ix3 b w k)).trans rfl

end Cert.KernelIdeal.Val

end
-- ==== Proof.DotAt.lean ====
/-
  The reference's two batched contractions read at an index, for arbitrary operands.

  At the ideal values a `dot_general` is an exact sum over the contracted axis. The first contraction pairs the last
  axes of two [2, 80, 204800] operands (row `w` of the left with row `v` of the right, batch by batch); the second
  contracts the last axis of a [2, 80, 80] operand with the middle axis of a [2, 80, 204800] operand. Each is stated at
  an index given by its three coordinates.
-/
import proofs.«156873_j53326313947745_1_alg».proof.Proof.Gen.ReferenceIdeal.Read
import Idealize.ShloMosaic.Lib.ValueIdx

noncomputable section

open scoped BigOperators

namespace Cert.ReferenceIdeal.DotAt

open Cert.ReferenceIdeal Cert.ReferenceIdeal.Gen Cert.ReferenceIdeal.Read Idealize.ShloMosaic Idealize.ShloMosaic.ValueIdx
  Idealize.ShloMosaic.StableHlo

/-- The left operand's index of the first contraction at result entry `(b, w, v)` and contracted position `k`. -/
theorem lidx6_ix3 (b : Fin 2) (w v : Fin 80) (k : Fin 204800) : lidx_main_v6 (ix3 b w v) k = ix3 b w k :=
  funext fun a => Fin.ext (by match a with | ⟨0, _⟩ => rfl | ⟨1, _⟩ => rfl | ⟨2, _⟩ => rfl)

/-- The right operand's index of the first contraction at result entry `(b, w, v)` and contracted position `k`. -/
theorem ridx6_ix3 (b : Fin 2) (w v : Fin 80) (k : Fin 204800) : ridx_main_v6 (ix3 b w v) k = ix3 b v k :=
  funext fun a => Fin.ext (by match a with | ⟨0, _⟩ => rfl | ⟨1, _⟩ => rfl | ⟨2, _⟩ => rfl)

/-- The left operand's index of the second contraction at result entry `(b, w, k)` and contracted position `v`. -/
theorem lidx18_ix3 (b : Fin 2) (w : Fin 80) (k : Fin 204800) (v : Fin 80) : lidx_main_v18 (ix3 b w k) v = ix3 b w v :=
  funext fun a => Fin.ext (by match a with | ⟨0, _⟩ => rfl | ⟨1, _⟩ => rfl | ⟨2, _⟩ => rfl)

/-- The right operand's index of the second contraction at result entry `(b, w, k)` and contracted position `v`. -/
theorem ridx18_ix3 (b : Fin 2) (w : Fin 80) (k : Fin 204800) (v : Fin 80) : ridx_main_v18 (ix3 b w k) v = ix3 b v k :=
  funext fun a => Fin.ext (by match a with | ⟨0, _⟩ => rfl | ⟨1, _⟩ => rfl | ⟨2, _⟩ => rfl)

/-- The first contraction at an index: entry `(b, w, v)` is the sum over the 204800 contracted positions of the left
    operand's row `w` times the right operand's row `v`, in batch `b`. -/
theorem dg1_at (l r : (⟨Cert.ReferenceIdeal.S2x80x204800, .f32⟩ : BufTy).Contents (Elt Ideal)) (b : Fin 2) (w v : Fin 80) :
    Host.dotGeneral (F := Ideal) (φ₁ := .f32) (φ₂ := .f32) Cert.ReferenceIdeal.dot_S2x80x204800_S2x80x204800_S2x80x80_2_2_1_1_0_0 none l r (ix3 b w v)
      = ∑ k : Fin 204800, l (ix3 b w k) * r (ix3 b v k) := by
  simp only [Host.dotGeneral]
  rw [Ideal.dotGeneral_apply, ← Equiv.sum_comp (ValueIdx.contrEquiv1 dot_S2x80x204800_S2x80x204800_S2x80x80_2_2_1_1_0_0 204800 rfl rfl).symm]
  refine Finset.sum_congr rfl fun k _ => ?_
  have hk := ValueIdx.contrEquiv1_symm_val dot_S2x80x204800_S2x80x204800_S2x80x80_2_2_1_1_0_0 204800 rfl rfl k
  have el : dot_S2x80x204800_S2x80x204800_S2x80x80_2_2_1_1_0_0.lhsIdx (ix3 b w v) ((ValueIdx.contrEquiv1 dot_S2x80x204800_S2x80x204800_S2x80x80_2_2_1_1_0_0 204800 rfl rfl).symm k) = lidx_main_v6 (ix3 b w v) k := funext fun a => Fin.ext (by
    match a with
    | ⟨0, _⟩ => exact lhs_main_v6_0 _ _
    | ⟨1, _⟩ => exact lhs_main_v6_1 _ _
    | ⟨2, _⟩ => exact (lhs_main_v6_2 _ _).trans hk)
  have er : dot_S2x80x204800_S2x80x204800_S2x80x80_2_2_1_1_0_0.rhsIdx (ix3 b w v) ((ValueIdx.contrEquiv1 dot_S2x80x204800_S2x80x204800_S2x80x80_2_2_1_1_0_0 204800 rfl rfl).symm k) = ridx_main_v6 (ix3 b w v) k := funext fun a => Fin.ext (by
    match a with
    | ⟨0, _⟩ => exact rhs_main_v6_0 _ _
    | ⟨1, _⟩ => exact rhs_main_v6_1 _ _
    | ⟨2, _⟩ => exact (rhs_main_v6_2 _ _).trans hk)
  rw [el, er, lidx6_ix3, ridx6_ix3]

/-- The second contraction at an index: entry `(b, w, k)` is the sum over the 80 contracted positions `v` of the left
    operand's entry `(b, w, v)` times the right operand's entry `(b, v, k)`. -/
theorem dg2_at (l : (⟨Cert.ReferenceIdeal.S2x80x80, .f32⟩ : BufTy).Contents (Elt Ideal))
    (r : (⟨Cert.ReferenceIdeal.S2x80x204800, .f32⟩ : BufTy).Contents (Elt Ideal)) (b : Fin 2) (w : Fin 80) (k : Fin 204800) :
    Host.dotGeneral (F := Ideal) (φ₁ := .f32) (φ₂ := .f32) Cert.ReferenceIdeal.dot_S2x80x80_S2x80x204800_S2x80x204800_2_1_1_2_0_0 none l r (ix3 b w k)
      = ∑ v : Fin 80, l (ix3 b w v) * r (ix3 b v k) := by
  simp only [Host.dotGeneral]
  rw [Ideal.dotGeneral_apply, ← Equiv.sum_comp (ValueIdx.contrEquiv1 dot_S2x80x80_S2x80x204800_S2x80x204800_2_1_1_2_0_0 80 rfl rfl).symm]
  refine Finset.sum_congr rfl fun v _ => ?_
  have hv := ValueIdx.contrEquiv1_symm_val dot_S2x80x80_S2x80x204800_S2x80x204800_2_1_1_2_0_0 80 rfl rfl v
  have el : dot_S2x80x80_S2x80x204800_S2x80x204800_2_1_1_2_0_0.lhsIdx (ix3 b w k) ((ValueIdx.contrEquiv1 dot_S2x80x80_S2x80x204800_S2x80x204800_2_1_1_2_0_0 80 rfl rfl).symm v) = lidx_main_v18 (ix3 b w k) v := funext fun a => Fin.ext (by
    match a with
    | ⟨0, _⟩ => exact lhs_main_v18_0 _ _
    | ⟨1, _⟩ => exact lhs_main_v18_1 _ _
    | ⟨2, _⟩ => exact (lhs_main_v18_2 _ _).trans hv)
  have er : dot_S2x80x80_S2x80x204800_S2x80x204800_2_1_1_2_0_0.rhsIdx (ix3 b w k) ((ValueIdx.contrEquiv1 dot_S2x80x80_S2x80x204800_S2x80x204800_2_1_1_2_0_0 80 rfl rfl).symm v) = ridx_main_v18 (ix3 b w k) v := funext fun a => Fin.ext (by
    match a with
    | ⟨0, _⟩ => exact rhs_main_v18_0 _ _
    | ⟨1, _⟩ => exact (rhs_main_v18_1 _ _).trans hv
    | ⟨2, _⟩ => exact rhs_main_v18_2 _ _)
  rw [el, er, lidx18_ix3, ridx18_ix3]

end Cert.ReferenceIdeal.DotAt

end
-- ==== Proof.Contract.lean ====
/-
  The two contractions of the attention block, as whole-array functions at the ideal values.

  contractQK q k is the logits array: at (b, w, v) the sum over the 204800 features of q[b, w, ·] · k[b, v, ·].
  contractAV a x is the output array: at (b, w, j) the sum over the 80 attended positions of a[b, w, ·] · x[b, ·, j].
  Sums are over the extended reals.
-/
import proofs.«156873_j53326313947745_1_alg».proof.KernelIdeal
import Idealize.ShloMosaic.PureOps.Ideal
import Idealize.ShloMosaic.Lib.ValueIdx

noncomputable section

open scoped BigOperators

namespace Cert.KernelIdeal.Val

open Idealize.ShloMosaic Idealize.ShloMosaic.ValueIdx Cert.KernelIdeal

/-- The logits: each row of `q` against each row of `k`, within a batch. -/
def contractQK (q k : (⟨S2x80x204800, .f32⟩ : BufTy).Contents (Elt Ideal)) : (⟨S2x80x80, .f32⟩ : BufTy).Contents (Elt Ideal) :=
  fun i => ∑ f : Fin 204800, q (ix3 (i 0 : Fin 2) (i 1 : Fin 80) f) * k (ix3 (i 0 : Fin 2) (i 2 : Fin 80) f)

theorem contractQK_at (q k : (⟨S2x80x204800, .f32⟩ : BufTy).Contents (Elt Ideal)) (b : Fin 2) (w v : Fin 80) :
    contractQK q k (ix3 b w v) = ∑ f : Fin 204800, q (ix3 b w f) * k (ix3 b v f) := rfl

/-- The output: each attention row against each column of the values, within a batch. -/
def contractAV (a : (⟨S2x80x80, .f32⟩ : BufTy).Contents (Elt Ideal)) (x : (⟨S2x80x204800, .f32⟩ : BufTy).Contents (Elt Ideal)) :
    (⟨S2x80x204800, .f32⟩ : BufTy).Contents (Elt Ideal) :=
  fun i => ∑ v : Fin 80, a (ix3 (i 0 : Fin 2) (i 1 : Fin 80) v) * x (ix3 (i 0 : Fin 2) v (i 2 : Fin 204800))

theorem contractAV_at (a : (⟨S2x80x80, .f32⟩ : BufTy).Contents (Elt Ideal)) (x : (⟨S2x80x204800, .f32⟩ : BufTy).Contents (Elt Ideal))
    (b : Fin 2) (w : Fin 80) (j : Fin 204800) :
    contractAV a x (ix3 b w j) = ∑ v : Fin 80, a (ix3 b w v) * x (ix3 b v j) := rfl

end Cert.KernelIdeal.Val

end
-- ==== Proof.KernelValue.lean ====
/-
  The kernel program's result, at the ideal values, as one term of the three argument arrays.

  Write flat(x) for an input transposed and flattened to [2, 80, 204800], sm for the softmax over the last axis as the
  host computes it (subtract the row maximum, exponentiate, divide by the row sum), and unflat for the closing reshape
  and transpose. The logits region leaves main_v6 = the contraction of flat(x) and flat(x_t) over the feature axis; the
  output region leaves main_v18 = the contraction of sm(main_v6) with flat(g_x) over the attended axis. So the program
  ends with main_v20 = unflat(dot2(sm(dot1(flat x, flat x_t)), flat g_x)), the very term the reference computes: the
  host operations are the same on both sides and are never opened, the two contractions are the reference's own.
-/
import proofs.«156873_j53326313947745_1_alg».proof.Proof.KernelIdealFrame.Run
import proofs.«156873_j53326313947745_1_alg».proof.Proof.QkValue
import proofs.«156873_j53326313947745_1_alg».proof.Proof.AvValue
import proofs.«156873_j53326313947745_1_alg».proof.Proof.DotAt
import proofs.«156873_j53326313947745_1_alg».proof.Proof.Contract
import Idealize.ShloMosaic.Lib.StableHlo.Run

set_option maxRecDepth 16384

noncomputable section

namespace Cert.KernelIdeal.Val

open Idealize.ShloMosaic Idealize.ShloMosaic.TcCoe Idealize.SL.Sem Idealize.ShloMosaic.StableHlo Idealize.ShloMosaic.ValueIdx
open Cert.KernelIdeal Cert.KernelIdeal.Gen Cert.KernelIdeal.Fr

variable {F : FTy → Type} [FloatOps F]

variable (m : (ℓ : Loc nD τ sig) → Buf (Elt F) ℓ)

/-! ## The host stretches, each as one function -/

/-- An input transposed to [B, W, H, C, D] and flattened to [B, W, H·C·D]. -/
def flat (x : (⟨S2x32x80x80x80, .f32⟩ : BufTy).Contents (Elt F)) : (⟨S2x80x204800, .f32⟩ : BufTy).Contents (Elt F) :=
  shapeCast _ (transpose S2x80x80x32x80 [0, 3, 2, 1, 4] x transposes_S2x32x80x80x80_S2x80x80x32x80_0_3_2_1_4) shapeCasts_S2x80x80x32x80_S2x80x204800

/-- The closing reshape to [B, W, H, C, D] and transpose back to [B, C, H, W, D]. -/
def unflat (y : (⟨S2x80x204800, .f32⟩ : BufTy).Contents (Elt F)) : (⟨S2x32x80x80x80, .f32⟩ : BufTy).Contents (Elt F) :=
  transpose S2x32x80x80x80 [0, 3, 2, 1, 4] (shapeCast _ y shapeCasts_S2x80x204800_S2x80x80x32x80) transposes_S2x80x80x32x80_S2x32x80x80x80_0_3_2_1_4

/-- The row maximum of the logits, broadcast back over the row. -/
def rowMax (x : (⟨S2x80x80, .f32⟩ : BufTy).Contents (Elt F)) : (⟨S2x80x80, .f32⟩ : BufTy).Contents (Elt F) :=
  broadcastInDim S2x80x80 ![0, 1, 2] bcast_S2x80x1_S2x80x80_0_1_2 (broadcastInDim S2x80x1 ![0, 1] bcast_S2x80_S2x80x1_0_1 (maximumf (broadcastInDim S2x80 ![] bcast_S_S2x80 (constant S_ .f32 0xFF800000#32)) (Host.reduce FloatOps.maximumf x (constant S_ .f32 0xFF800000#32) reducesTo_S2x80x80_S2x80_d2 h_S_)))

/-- The softmax over the last axis, as the host's operations compute it. -/
def sm (x : (⟨S2x80x80, .f32⟩ : BufTy).Contents (Elt F)) : (⟨S2x80x80, .f32⟩ : BufTy).Contents (Elt F) :=
  Host.divf (Host.exp (subf x (rowMax x))) (broadcastInDim S2x80x80 ![0, 1, 2] bcast_S2x80x1_S2x80x80_0_1_2 (broadcastInDim S2x80x1 ![0, 1] bcast_S2x80_S2x80x1_0_1 (Host.reduceAdd (Host.exp (subf x (rowMax x))) (constant S_ .f32 0x00000000#32) reducesTo_S2x80x80_S2x80_d2 h_S_)))

theorem W1_v1 (c : Dev nD) : W1 m c (Proc.devRef .tc main_v1) = flat (m ((c : Thread nD τ).loc main_arg0)) := by
  unfold flat; dsimp only [W1, W0, hostOps0]; after_results <;> rfl
theorem W1_v3 (c : Dev nD) : W1 m c (Proc.devRef .tc main_v3) = flat (m ((c : Thread nD τ).loc main_arg1)) := by
  unfold flat; dsimp only [W1, W0, hostOps0]; after_results <;> rfl
theorem W1_v5 (c : Dev nD) : W1 m c (Proc.devRef .tc main_v5) = flat (m ((c : Thread nD τ).loc main_arg2)) := by
  unfold flat; dsimp only [W1, W0, hostOps0]; after_results <;> rfl

/-- The flattened values array reaches the output region as the first stretch left it. -/
theorem W3_v5 (c : Dev nD) : W3 m c (Proc.devRef .tc main_v5) = W1 m c (Proc.devRef .tc main_v5) :=
  (StableHlo.after_of_writes_sub hostOps1 _ hostOps1_writes (show main_v5 ∉ hostOps1_W by decide)).trans (W2_of_ne m c main_v5 (by decide))

theorem W3_v17 (c : Dev nD) : W3 m c (Proc.devRef .tc main_v17) = sm (W2 m c (Proc.devRef .tc main_v6)) := by
  unfold sm rowMax; dsimp only [W3, hostOps1]; after_results <;> rfl

theorem W5_v20 (c : Dev nD) : W5 m c (Proc.devRef .tc main_v20) = unflat (W4 m c (Proc.devRef .tc main_v18)) := by
  unfold unflat; dsimp only [W5, hostOps2]; after_results <;> rfl

/-! ## The two regions' arrays are the reference's two contractions -/

section AtIdeal

variable (m : (ℓ : Loc nD τ sig) → Buf (Elt Ideal) ℓ)

/-- The reference's first contraction is `contractQK`, entry by entry. -/
theorem dg1_eq (l r : (⟨Cert.ReferenceIdeal.S2x80x204800, .f32⟩ : BufTy).Contents (Elt Ideal)) :
    Host.dotGeneral (F := Ideal) (φ₁ := .f32) (φ₂ := .f32) Cert.ReferenceIdeal.dot_S2x80x204800_S2x80x204800_S2x80x80_2_2_1_1_0_0 none l r = contractQK l r :=
  funext fun i => by
    obtain ⟨b, w, v, rfl⟩ : ∃ (b : Fin 2) (w v : Fin 80), i = ix3 b w v := ⟨i 0, i 1, i 2, eq_ix3 i⟩
    rw [Cert.ReferenceIdeal.DotAt.dg1_at, contractQK_at]

/-- The reference's second contraction is `contractAV`, entry by entry. -/
theorem dg2_eq (l : (⟨Cert.ReferenceIdeal.S2x80x80, .f32⟩ : BufTy).Contents (Elt Ideal)) (r : (⟨Cert.ReferenceIdeal.S2x80x204800, .f32⟩ : BufTy).Contents (Elt Ideal)) :
    Host.dotGeneral (F := Ideal) (φ₁ := .f32) (φ₂ := .f32) Cert.ReferenceIdeal.dot_S2x80x80_S2x80x204800_S2x80x204800_2_1_1_2_0_0 none l r = contractAV l r :=
  funext fun i => by
    obtain ⟨b, w, k, rfl⟩ : ∃ (b : Fin 2) (w : Fin 80) (k : Fin 204800), i = ix3 b w k := ⟨i 0, i 1, i 2, eq_ix3 i⟩
    rw [Cert.ReferenceIdeal.DotAt.dg2_at, contractAV_at]

/-- The logits array after its region, as a whole: the contraction of the region's two input arrays. -/
theorem qk_fun (V : (c : Dev nD) → (b : Ref sig .tc) → Buf (Elt Ideal) ((c : Thread nD τ).loc b)) (c : Dev nD) :
    (dat0 (F := Ideal) V c).arrAt 2 cfg0.N = contractQK (V c main_v1) (V c main_v3) :=
  funext fun i => by
    obtain ⟨b, w, v, rfl⟩ : ∃ (b : Fin 2) (w v : Fin 80), i = ix3 b w v := ⟨i 0, i 1, i 2, eq_ix3 i⟩
    rw [contractQK_at]
    exact qk_final V c b w v

/-- The output array after its region, as a whole: the contraction of the attention array with the values array. -/
theorem av_fun (V : (c : Dev nD) → (b : Ref sig .tc) → Buf (Elt Ideal) ((c : Thread nD τ).loc b)) (c : Dev nD) :
    (dat1 (F := Ideal) V c).arrAt 2 cfg1.N = contractAV (V c main_v17) (V c main_v5) :=
  funext fun i => by
    obtain ⟨b, w, k, rfl⟩ : ∃ (b : Fin 2) (w : Fin 80) (k : Fin 204800), i = ix3 b w k := ⟨i 0, i 1, i 2, eq_ix3 i⟩
    rw [contractAV_at]
    exact av_final V c b w k

/-- After the logits region, main_v6 is the contraction over the feature axis of the two flattened inputs. -/
theorem qk_array (c : Dev nD) :
    W2 m c (Proc.devRef .tc main_v6)
      = Host.dotGeneral (F := Ideal) (φ₁ := .f32) (φ₂ := .f32) Cert.ReferenceIdeal.dot_S2x80x204800_S2x80x204800_S2x80x80_2_2_1_1_0_0 none
          (W1 m c (Proc.devRef .tc main_v1)) (W1 m c (Proc.devRef .tc main_v3)) :=
  (W2_arr m c 2).trans ((qk_fun (V1 m) c).trans (dg1_eq _ _).symm)

/-- After the output region, main_v18 is the contraction over the attended axis of the softmax with the flattened values. -/
theorem av_array (c : Dev nD) :
    W4 m c (Proc.devRef .tc main_v18)
      = Host.dotGeneral (F := Ideal) (φ₁ := .f32) (φ₂ := .f32) Cert.ReferenceIdeal.dot_S2x80x80_S2x80x204800_S2x80x204800_2_1_1_2_0_0 none
          (W3 m c (Proc.devRef .tc main_v17)) (W3 m c (Proc.devRef .tc main_v5)) :=
  (W4_arr m c 2).trans ((av_fun (V3 m) c).trans (dg2_eq _ _).symm)

/-! ## The result -/

/-- What the program ends with in its result buffer, as one term of the argument arrays. -/
def result (x0 x1 x2 : (⟨S2x32x80x80x80, .f32⟩ : BufTy).Contents (Elt Ideal)) : (⟨S2x32x80x80x80, .f32⟩ : BufTy).Contents (Elt Ideal) :=
  unflat (F := Ideal) (Host.dotGeneral (F := Ideal) (φ₁ := .f32) (φ₂ := .f32) Cert.ReferenceIdeal.dot_S2x80x80_S2x80x204800_S2x80x204800_2_1_1_2_0_0 none
    (sm (F := Ideal) (Host.dotGeneral (F := Ideal) (φ₁ := .f32) (φ₂ := .f32) Cert.ReferenceIdeal.dot_S2x80x204800_S2x80x204800_S2x80x80_2_2_1_1_0_0 none (flat (F := Ideal) x0) (flat (F := Ideal) x1))) (flat (F := Ideal) x2))

theorem result_eq (c : Dev nD) :
    W5 m c (Proc.devRef .tc main_v20)
      = result (m ((c : Thread nD τ).loc main_arg0)) (m ((c : Thread nD τ).loc main_arg1)) (m ((c : Thread nD τ).loc main_arg2)) := by
  unfold result
  rw [W5_v20, av_array, W3_v17, W3_v5, W1_v5, qk_array, W1_v1, W1_v3]

end AtIdeal

end Cert.KernelIdeal.Val

end
-- ==== Proof.lean ====
/-
  The certificate: an attention block over coronal slices, out = softmax(q · kᵀ) · v on inputs transposed and flattened to
  [2, 80, 204800], computed by two kernel regions around a host softmax, against the same computation with two whole
  contractions.

  The word-level kernel program and its idealization both run to the end with the arguments unchanged: host operations,
  a region that accumulates the logits over 20 column tiles in a scratch accumulator reset at each batch's first tile and
  written out at its last, the softmax's host operations, a region that multiplies the attention block into each value
  tile, host operations. The reference is a straight line of host operations. The idealization rewrote nothing, so it is
  the kernel's own text read at the ideal values. At the ideal values a change of float format is the identity and a
  matrix product into a zero accumulator is an exact sum over the extended reals, where addition is commutative and
  associative without any finiteness: summing a row's 204800 products tile by tile, in 20 groups of 10240, is the whole
  sum; and the second region's product of the 80 × 80 attention block with a value tile is, entry by entry, the reference's
  contraction over the attended axis. Everything else (transposes, reshapes, the softmax) is the same host operations on
  both sides and is never opened. So both programs end with the same term of the arguments.
-/
import proofs.«156873_j53326313947745_1_alg».proof.Defs
import proofs.«156873_j53326313947745_1_alg».proof.Proof.Gen.Kernel
import proofs.«156873_j53326313947745_1_alg».proof.Proof.Gen.KernelIdeal
import proofs.«156873_j53326313947745_1_alg».proof.Proof.Gen.ReferenceIdeal
import proofs.«156873_j53326313947745_1_alg».proof.Proof.Gen.Pre_finite_inputs
import proofs.«156873_j53326313947745_1_alg».proof.Proof.Gen.ReferenceIdeal.Run
import proofs.«156873_j53326313947745_1_alg».proof.Proof.KernelFrame.Run
import proofs.«156873_j53326313947745_1_alg».proof.Proof.KernelIdealFrame.Run
import proofs.«156873_j53326313947745_1_alg».proof.Proof.KernelValue
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with `unflat (dot2 (softmax (dot1 (flat x) (flat x_t))) (flat g_x))`: the kernel program by its
    run with the two regions' arrays read as the two contractions, the reference by its run read back, the arguments'
    agreement rewritten. -/
theorem algebraic : Cert.algebraic_KernelIdeal_ReferenceIdeal := by
  intro m ρ m' ρ' _ hagree
  refine ⟨fun c => Cert.KernelIdeal.Val.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c =>
      ⟨(h c _ (Cert.KernelIdeal.Fr.mem_uc Cert.KernelIdeal.main_v20 (by decide))).trans (Cert.KernelIdeal.Val.result_eq m c),
       (h c _ (Cert.KernelIdeal.Fr.mem_uc Cert.KernelIdeal.main_arg0 (by decide))).trans (Cert.KernelIdeal.Fr.W5_main_arg0 m c),
       (h c _ (Cert.KernelIdeal.Fr.mem_uc Cert.KernelIdeal.main_arg1 (by decide))).trans (Cert.KernelIdeal.Fr.W5_main_arg1 m c),
       (h c _ (Cert.KernelIdeal.Fr.mem_uc Cert.KernelIdeal.main_arg2 (by decide))).trans (Cert.KernelIdeal.Fr.W5_main_arg2 m c)⟩)
      (Cert.KernelIdeal.Fr.run_main m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
